-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v84)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v84) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v153) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S8192x16 : Shape := ⟨2, ![8192, 16]⟩
abbrev S8192 : Shape := ⟨1, ![8192]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S8192x16 : S_.BroadcastsInDim S8192x16 (![] : Fin 0 → Fin S8192x16.rank)
  reducesTo_S8192x16_S_d0_1 : S8192x16.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg3 : IVec S8192 32) (main_v12 : IVec S_ 1) (main_v15 : IVec S_ 1) : IVec S_ 1 :=
  let main_v16 : IVec S_ 1 := andi main_v12 main_v15
  let main_c_6 : IVec S_ 32 := constantI S_ 32 4294963200#32
  let main_v17 : IVec S8192 32 := broadcastInDim S8192 ![] bcast_S_S8192 main_c_6
  let main_v18 : IVec S8192 1 := cmpi .sge main_arg3 main_v17
  let main_c_7 : IVec S_ 1 := constantI S_ 1 1#1
  let main_v19 : IVec S_ 1 := (fun x v => Host.reduce IntOp.andi x v reducesTo_S8192_S_d0 h_S_) main_v18 main_c_7
  let main_v20 : IVec S_ 1 := andi main_v16 main_v19
  let main_c_8 : IVec S_ 32 := constantI S_ 32 4096#32
  let main_v21 : IVec S8192 32 := broadcastInDim S8192 ![] bcast_S_S8192 main_c_8
  let main_v22 : IVec S8192 1 := cmpi .slt main_arg3 main_v21
  let main_c_9 : IVec S_ 1 := constantI S_ 1 1#1
  let main_v23 : IVec S_ 1 := (fun x v => Host.reduce IntOp.andi x v reducesTo_S8192_S_d0 h_S_) main_v22 main_c_9
  let main_v24 : IVec S_ 1 := andi main_v20 main_v23
  main_v24

def fn {F : FTy → Type} [FloatOps F] (main_arg0 : FVec F S4096x4096 .f32) (main_arg1 : FVec F S8192x16 .f32) (main_arg2 : IVec S8192 32) (main_arg3 : IVec S8192 32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S8192x16 .f32 := Host.absf main_arg1
  let main_cst_0 : FVec F S_ .f32 := constant S_ .f32 0x7F800000#32
  let main_v5 : FVec F S8192x16 .f32 := broadcastInDim S8192x16 ![] bcast_S_S8192x16 main_cst_0
  let main_v6 : IVec S8192x16 1 := cmpf .olt main_v4 main_v5
  let main_c_1 : IVec S_ 1 := constantI S_ 1 1#1
  let main_v7 : IVec S_ 1 := (fun x v => Host.reduce IntOp.andi x v reducesTo_S8192x16_S_d0_1 h_S_) main_v6 main_c_1
  let main_v8 : IVec S_ 1 := andi main_v3 main_v7
  let main_c_2 : IVec S_ 32 := constantI S_ 32 4294963200#32
  let main_v9 : IVec S8192 32 := broadcastInDim S8192 ![] bcast_S_S8192 main_c_2
  let main_v10 : IVec S8192 1 := cmpi .sge main_arg2 main_v9
  let main_c_3 : IVec S_ 1 := constantI S_ 1 1#1
  let main_v11 : IVec S_ 1 := (fun x v => Host.reduce IntOp.andi x v reducesTo_S8192_S_d0 h_S_) main_v10 main_c_3
  let main_v12 : IVec S_ 1 := andi main_v8 main_v11
  let main_c_4 : IVec S_ 32 := constantI S_ 32 4096#32
  let main_v13 : IVec S8192 32 := broadcastInDim S8192 ![] bcast_S_S8192 main_c_4
  let main_v14 : IVec S8192 1 := cmpi .slt main_arg2 main_v13
  let main_c_5 : IVec S_ 1 := constantI S_ 1 1#1
  let main_v15 : IVec S_ 1 := (fun x v => Host.reduce IntOp.andi x v reducesTo_S8192_S_d0 h_S_) main_v14 main_c_5
  fn_part1 (F := F) main_arg3 main_v12 main_v15
-- ==== Kernel.lean ====
abbrev S4096x4096 : Shape := ⟨2, ![4096, 4096]⟩
abbrev S8192x16 : Shape := ⟨2, ![8192, 16]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S4096x8192 : Shape := ⟨2, ![4096, 8192]⟩
abbrev S1x8192 : Shape := ⟨2, ![1, 8192]⟩
abbrev S4x8192 : Shape := ⟨2, ![4, 8192]⟩
abbrev S512x1024 : Shape := ⟨2, ![512, 1024]⟩
abbrev S4x1024 : Shape := ⟨2, ![4, 1024]⟩
abbrev S1x1024 : Shape := ⟨2, ![1, 1024]⟩

abbrev nBuf : Space → Nat
  | .hbm => 138
  | .vmem => 8
  | .smem => 0
  | _ => 0

abbrev hbmTy0_0 (i : Nat) : BufTy := match i % 128 with
  | 0 => ⟨S4096x4096, .f32⟩
  | 1 => ⟨S8192x16, .f32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S1, .i32⟩
  | 13 => ⟨S_, .i32⟩
  | 14 => ⟨S8192x1, .i32⟩
  | 15 => ⟨S8192x1, .i1⟩
  | 16 => ⟨S1x1, .i32⟩
  | 17 => ⟨S8192x1, .i32⟩
  | 18 => ⟨S8192x1, .i1⟩
  | 19 => ⟨S8192x1, .i1⟩
  | 20 => ⟨S_, .i1⟩
  | 21 => ⟨S8192, .i1⟩
  | 22 => ⟨S4096x8192, .f32⟩
  | 23 => ⟨S4096x8192, .i1⟩
  | 24 => ⟨S_, .f32⟩
  | 25 => ⟨S4096x8192, .f32⟩
  | 26 => ⟨S4096x8192, .f32⟩
  | 27 => ⟨S_, .i32⟩
  | 28 => ⟨S8192, .i32⟩
  | 29 => ⟨S8192, .i1⟩
  | 30 => ⟨S_, .i32⟩
  | 31 => ⟨S8192, .i32⟩
  | 32 => ⟨S8192, .i32⟩
  | 33 => ⟨S8192, .i32⟩
  | 34 => ⟨S8192x1, .i32⟩
  | 35 => ⟨S1, .i32⟩
  | 36 => ⟨S_, .i32⟩
  | 37 => ⟨S8192x1, .i32⟩
  | 38 => ⟨S8192x1, .i1⟩
  | 39 => ⟨S1x1, .i32⟩
  | 40 => ⟨S8192x1, .i32⟩
  | 41 => ⟨S8192x1, .i1⟩
  | 42 => ⟨S8192x1, .i1⟩
  | 43 => ⟨S_, .i1⟩
  | 44 => ⟨S8192, .i1⟩
  | 45 => ⟨S4096x8192, .f32⟩
  | 46 => ⟨S4096x8192, .i1⟩
  | 47 => ⟨S_, .f32⟩
  | 48 => ⟨S4096x8192, .f32⟩
  | 49 => ⟨S4096x8192, .f32⟩
  | 50 => ⟨S_, .f32⟩
  | 51 => ⟨S8192, .f32⟩
  | 52 => ⟨S_, .f32⟩
  | 53 => ⟨S8192, .f32⟩
  | 54 => ⟨S8192, .f32⟩
  | 55 => ⟨S8192x1, .f32⟩
  | 56 => ⟨S8192x16, .f32⟩
  | 57 => ⟨S8192x16, .f32⟩
  | 58 => ⟨S8192x16, .f32⟩
  | 59 => ⟨S_, .f32⟩
  | 60 => ⟨S8192, .f32⟩
  | 61 => ⟨S8192x1, .f32⟩
  | 62 => ⟨S8192x16, .f32⟩
  | 63 => ⟨S8192x16, .f32⟩
  | 64 => ⟨S8192x1, .f32⟩
  | 65 => ⟨S8192, .f32⟩
  | 66 => ⟨S8192x1, .f32⟩
  | 67 => ⟨S8192, .f32⟩
  | 68 => ⟨S8192x1, .f32⟩
  | 69 => ⟨S8192, .f32⟩
  | 70 => ⟨S8192x1, .f32⟩
  | 71 => ⟨S8192, .f32⟩
  | 72 => ⟨S8192x1, .f32⟩
  | 73 => ⟨S8192, .f32⟩
  | 74 => ⟨S8192x1, .f32⟩
  | 75 => ⟨S8192, .f32⟩
  | 76 => ⟨S8192x1, .f32⟩
  | 77 => ⟨S8192, .f32⟩
  | 78 => ⟨S8192x1, .f32⟩
  | 79 => ⟨S8192, .f32⟩
  | 80 => ⟨S8192x1, .f32⟩
  | 81 => ⟨S8192, .f32⟩
  | 82 => ⟨S8192x1, .f32⟩
  | 83 => ⟨S8192, .f32⟩
  | 84 => ⟨S8192x1, .f32⟩
  | 85 => ⟨S8192, .f32⟩
  | 86 => ⟨S8192x1, .f32⟩
  | 87 => ⟨S8192, .f32⟩
  | 88 => ⟨S8192x1, .f32⟩
  | 89 => ⟨S8192, .f32⟩
  | 90 => ⟨S8192x1, .f32⟩
  | 91 => ⟨S8192, .f32⟩
  | 92 => ⟨S8192x1, .f32⟩
  | 93 => ⟨S8192, .f32⟩
  | 94 => ⟨S8192x1, .f32⟩
  | 95 => ⟨S8192, .f32⟩
  | 96 => ⟨S8192, .f32⟩
  | 97 => ⟨S8192, .f32⟩
  | 98 => ⟨S8192, .f32⟩
  | 99 => ⟨S8192, .f32⟩
  | 100 => ⟨S8192, .f32⟩
  | 101 => ⟨S8192, .f32⟩
  | 102 => ⟨S8192, .f32⟩
  | 103 => ⟨S8192, .f32⟩
  | 104 => ⟨S8192, .f32⟩
  | 105 => ⟨S8192, .f32⟩
  | 106 => ⟨S8192, .f32⟩
  | 107 => ⟨S8192, .f32⟩
  | 108 => ⟨S8192, .f32⟩
  | 109 => ⟨S8192, .f32⟩
  | 110 => ⟨S8192, .f32⟩
  | 111 => ⟨S8192, .f32⟩
  | 112 => ⟨S8192, .f32⟩
  | 113 => ⟨S8192, .f32⟩
  | 114 => ⟨S8192, .f32⟩
  | 115 => ⟨S8192, .f32⟩
  | 116 => ⟨S8192, .f32⟩
  | 117 => ⟨S8192, .f32⟩
  | 118 => ⟨S8192, .f32⟩
  | 119 => ⟨S_, .f32⟩
  | 120 => ⟨S8192, .f32⟩
  | 121 => ⟨S8192, .f32⟩
  | 122 => ⟨S8192, .f32⟩
  | 123 => ⟨S8192, .f32⟩
  | 124 => ⟨S8192, .f32⟩
  | 125 => ⟨S_, .f32⟩
  | 126 => ⟨S8192, .f32⟩
  | 127 => ⟨S8192, .f32⟩
  | _ => ⟨S4096x4096, .f32⟩

abbrev hbmTy0_1 (i : Nat) : BufTy := match i % 128 with
  | 0 => ⟨S8192, .f32⟩
  | 1 => ⟨S8192, .f32⟩
  | 2 => ⟨S8192, .f32⟩
  | 3 => ⟨S8192, .f32⟩
  | 4 => ⟨S1x8192, .f32⟩
  | 5 => ⟨S1x8192, .f32⟩
  | 6 => ⟨S1x8192, .f32⟩
  | 7 => ⟨S1x8192, .f32⟩
  | 8 => ⟨S4x8192, .f32⟩
  | 9 => ⟨S4096x8192, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S4x1024, .f32⟩
  | .local _ .vmem, ⟨5, _⟩ => ⟨S4x1024, .f32⟩
  | .local _ .vmem, ⟨6, _⟩ => ⟨S512x1024, .f32⟩
  | .local _ .vmem, ⟨7, _⟩ => ⟨S512x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_call1_c : Ref sig .tc := ⟨.hbm, 27, rfl⟩
abbrev main_call1_v0 : Ref sig .tc := ⟨.hbm, 28, rfl⟩
abbrev main_call1_v1 : Ref sig .tc := ⟨.hbm, 29, rfl⟩
abbrev main_call1_c_0 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_c_1 : Ref sig .tc := ⟨.hbm, 35, rfl⟩
abbrev main_call1_c_2 : Ref sig .tc := ⟨.hbm, 36, rfl⟩
abbrev main_call1_v6 : Ref sig .tc := ⟨.hbm, 37, rfl⟩
abbrev main_call1_v7 : Ref sig .tc := ⟨.hbm, 38, rfl⟩
abbrev main_call1_v8 : Ref sig .tc := ⟨.hbm, 39, rfl⟩
abbrev main_call1_v9 : Ref sig .tc := ⟨.hbm, 40, rfl⟩
abbrev main_call1_v10 : Ref sig .tc := ⟨.hbm, 41, rfl⟩
abbrev main_call1_v11 : Ref sig .tc := ⟨.hbm, 42, rfl⟩
abbrev main_call1_c_3 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_cst : Ref sig .tc := ⟨.hbm, 47, rfl⟩
abbrev main_call1_v15 : Ref sig .tc := ⟨.hbm, 48, rfl⟩
abbrev main_v1 : Ref sig .tc := ⟨.hbm, 49, rfl⟩
abbrev main_cst : Ref sig .tc := ⟨.hbm, 50, rfl⟩
abbrev main_v2 : Ref sig .tc := ⟨.hbm, 51, rfl⟩
abbrev main_cst_0 : Ref sig .tc := ⟨.hbm, 52, rfl⟩
abbrev main_v3 : Ref sig .tc := ⟨.hbm, 53, rfl⟩
abbrev main_v4 : Ref sig .tc := ⟨.hbm, 54, rfl⟩
abbrev main_v5 : Ref sig .tc := ⟨.hbm, 55, rfl⟩
abbrev main_v6 : Ref sig .tc := ⟨.hbm, 56, rfl⟩
abbrev main_v7 : Ref sig .tc := ⟨.hbm, 57, rfl⟩
abbrev main_v8 : Ref sig .tc := ⟨.hbm, 58, rfl⟩
abbrev main_cst_1 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev main_v12 : Ref sig .tc := ⟨.hbm, 63, rfl⟩
abbrev main_v13 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_v32 : Ref sig .tc := ⟨.hbm, 83, rfl⟩
abbrev main_v33 : Ref sig .tc := ⟨.hbm, 84, rfl⟩
abbrev main_v34 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_v43 : Ref sig .tc := ⟨.hbm, 94, rfl⟩
abbrev main_v44 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev main_v49 : Ref sig .tc := ⟨.hbm, 100, rfl⟩
abbrev main_v50 : Ref sig .tc := ⟨.hbm, 101, rfl⟩
abbrev main_v51 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_cst_2 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_cst_3 : Ref sig .tc := ⟨.hbm, 125, rfl⟩
abbrev main_v73 : Ref sig .tc := ⟨.hbm, 126, rfl⟩
abbrev main_v74 : Ref sig .tc := ⟨.hbm, 127, rfl⟩
abbrev main_v75 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S4096x8192_1 : S8192.BroadcastsInDim S4096x8192 (![1] : Fin 1 → Fin S4096x8192.rank)
  bcast_S_S4096x8192 : S_.BroadcastsInDim S4096x8192 (![] : Fin 0 → Fin S4096x8192.rank)
  reducesTo_S8192x16_S8192_d1 : S8192x16.ReducesTo [1] S8192
  bcast_S8192x1_S8192x16_0_1 : S8192x1.BroadcastsInDim S8192x16 (![0, 1] : Fin 2 → Fin S8192x16.rank)
  slices_S8192x16_S8192x1_0_0 : S8192x16.Slices ![0, 0] S8192x1
  shapeCasts_S8192x1_S8192 : S8192x1.ShapeCasts S8192
  slices_S8192x16_S8192x1_0_1 : S8192x16.Slices ![0, 1] S8192x1
  slices_S8192x16_S8192x1_0_2 : S8192x16.Slices ![0, 2] S8192x1
  slices_S8192x16_S8192x1_0_3 : S8192x16.Slices ![0, 3] S8192x1
  slices_S8192x16_S8192x1_0_4 : S8192x16.Slices ![0, 4] S8192x1
  slices_S8192x16_S8192x1_0_5 : S8192x16.Slices ![0, 5] S8192x1
  slices_S8192x16_S8192x1_0_6 : S8192x16.Slices ![0, 6] S8192x1
  slices_S8192x16_S8192x1_0_7 : S8192x16.Slices ![0, 7] S8192x1
  slices_S8192x16_S8192x1_0_8 : S8192x16.Slices ![0, 8] S8192x1
  slices_S8192x16_S8192x1_0_9 : S8192x16.Slices ![0, 9] S8192x1
  slices_S8192x16_S8192x1_0_10 : S8192x16.Slices ![0, 10] S8192x1
  slices_S8192x16_S8192x1_0_11 : S8192x16.Slices ![0, 11] S8192x1
  slices_S8192x16_S8192x1_0_12 : S8192x16.Slices ![0, 12] S8192x1
  slices_S8192x16_S8192x1_0_13 : S8192x16.Slices ![0, 13] S8192x1
  slices_S8192x16_S8192x1_0_14 : S8192x16.Slices ![0, 14] S8192x1
  slices_S8192x16_S8192x1_0_15 : S8192x16.Slices ![0, 15] S8192x1
  bcast_S8192_S1x8192_1 : S8192.BroadcastsInDim S1x8192 (![1] : Fin 1 → Fin S1x8192.rank)
  concatenates_S1x8192_S1x8192_S1x8192_S1x8192_S4x8192_d0 : Shape.Concatenates [S1x8192, S1x8192, S1x8192, S1x8192] S4x8192 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4x1024_S4x1024_0_0 : ∀ a, (![0, 0] : Fin 2 → Nat) a + S4x1024.size a ≤ S4x1024.size a
  h_S4x1024 : 0 < S4x1024.numel
  shapeCasts_S4x1024_S4x1024 : S4x1024.ShapeCasts S4x1024
  slices_S4x1024_o0_0_S1x1024 : S4x1024.Slices ![0, 0] S1x1024
  slices_S4x1024_o1_0_S1x1024 : S4x1024.Slices ![1, 0] S1x1024
  slices_S4x1024_o2_0_S1x1024 : S4x1024.Slices ![2, 0] S1x1024
  slices_S4x1024_o3_0_S1x1024 : S4x1024.Slices ![3, 0] S1x1024
  broadcasts_S1x1024_S512x1024 : S1x1024.Broadcasts S512x1024
  gather_S4096x4096_S8192x1_S4096x8192_0_1_n_n_1_1_40961_wf : GatherDims.WF S4096x4096 S8192x1 S4096x8192 [0] [1] [] [1] [] 1 ![4096, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x8192.size a
  hwx0_0 : ∀ i : grid0.Coords, EltTy.bits .f32 = 32 ∨ (Rect.block (s := S4096x8192) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x8192.size a
  hwx0_1 : ∀ i : grid0.Coords, EltTy.bits .f32 = 32 ∨ (Rect.block (s := S4096x8192) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x1024.size a ≤ S4x8192.size a
  hwx0_2 : ∀ i : grid0.Coords, EltTy.bits .f32 = 32 ∨ (Rect.block (s := S4x8192) S4x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x8192.size a
  hwx0_3 : ∀ i : grid0.Coords, EltTy.bits .f32 = 32 ∨ (Rect.block (s := S4096x8192) S512x1024.size (cc0_transform_3 i) (hinb0_3 i)).WholeWords (EltTy.packing .f32)

variable [Facts₀]

def gather_S4096x4096_S8192x1_S4096x8192_0_1_n_n_1_1_40961 : GatherDims S4096x4096 S8192x1 S4096x8192 where
  offsetDims := [0]
  collapsedSliceDims := [1]
  operandBatchingDims := []
  startIndicesBatchingDims := []
  startIndexMap := [1]
  indexVectorDim := 1
  sliceSizes := ![4096, 1]
  wf := gather_S4096x4096_S8192x1_S4096x8192_0_1_n_n_1_1_40961_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v83) S4x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v84) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x4096 : Shape := ⟨2, ![4096, 4096]⟩
abbrev S8192x16 : Shape := ⟨2, ![8192, 16]⟩
abbrev S8192 : Shape := ⟨1, ![8192]⟩
abbrev S_ : Shape := ⟨0, ![]⟩
abbrev S8192x1 : Shape := ⟨2, ![8192, 1]⟩
abbrev S4096x8192 : Shape := ⟨2, ![4096, 8192]⟩
abbrev S1x8192 : Shape := ⟨2, ![1, 8192]⟩

abbrev nBuf : Space → Nat
  | .hbm => 176
  | .vmem => 0
  | .smem => 0
  | _ => 0

abbrev hbmTy0_0 (i : Nat) : BufTy := match i % 128 with
  | 0 => ⟨S4096x4096, .f32⟩
  | 1 => ⟨S8192x16, .f32⟩
  | 2 => ⟨S8192, .i32⟩
  | 3 => ⟨S8192, .i32⟩
  | 4 => ⟨S_, .i32⟩
  | 5 => ⟨S8192, .i32⟩
  | 6 => ⟨S8192, .i1⟩
  | 7 => ⟨S_, .i32⟩
  | 8 => ⟨S8192, .i32⟩
  | 9 => ⟨S8192, .i32⟩
  | 10 => ⟨S8192, .i32⟩
  | 11 => ⟨S8192x1, .i32⟩
  | 12 => ⟨S4096x8192, .f32⟩
  | 13 => ⟨S_, .i32⟩
  | 14 => ⟨S8192, .i32⟩
  | 15 => ⟨S8192, .i1⟩
  | 16 => ⟨S_, .i32⟩
  | 17 => ⟨S8192, .i32⟩
  | 18 => ⟨S8192, .i32⟩
  | 19 => ⟨S8192, .i32⟩
  | 20 => ⟨S8192x1, .i32⟩
  | 21 => ⟨S4096x8192, .f32⟩
  | 22 => ⟨S4096x8192, .f32⟩
  | 23 => ⟨S_, .f32⟩
  | 24 => ⟨S8192, .f32⟩
  | 25 => ⟨S_, .f32⟩
  | 26 => ⟨S8192, .f32⟩
  | 27 => ⟨S8192, .f32⟩
  | 28 => ⟨S8192x1, .f32⟩
  | 29 => ⟨S8192x16, .f32⟩
  | 30 => ⟨S8192x16, .f32⟩
  | 31 => ⟨S8192x16, .f32⟩
  | 32 => ⟨S_, .f32⟩
  | 33 => ⟨S8192, .f32⟩
  | 34 => ⟨S8192x1, .f32⟩
  | 35 => ⟨S8192x16, .f32⟩
  | 36 => ⟨S8192x16, .f32⟩
  | 37 => ⟨S_, .f32⟩
  | 38 => ⟨S4096x8192, .f32⟩
  | 39 => ⟨S_, .f32⟩
  | 40 => ⟨S4096x8192, .f32⟩
  | 41 => ⟨S4096x8192, .f32⟩
  | 42 => ⟨S4096x8192, .f32⟩
  | 43 => ⟨S4096x8192, .f32⟩
  | 44 => ⟨S_, .f32⟩
  | 45 => ⟨S4096x8192, .f32⟩
  | 46 => ⟨S4096x8192, .f32⟩
  | 47 => ⟨S4096x8192, .f32⟩
  | 48 => ⟨S4096x8192, .f32⟩
  | 49 => ⟨S4096x8192, .f32⟩
  | 50 => ⟨S4096x8192, .f32⟩
  | 51 => ⟨S4096x8192, .f32⟩
  | 52 => ⟨S_, .f32⟩
  | 53 => ⟨S4096x8192, .f32⟩
  | 54 => ⟨S4096x8192, .f32⟩
  | 55 => ⟨S4096x8192, .f32⟩
  | 56 => ⟨S_, .f32⟩
  | 57 => ⟨S4096x8192, .f32⟩
  | 58 => ⟨S4096x8192, .f32⟩
  | 59 => ⟨S4096x8192, .f32⟩
  | 60 => ⟨S_, .f32⟩
  | 61 => ⟨S4096x8192, .f32⟩
  | 62 => ⟨S4096x8192, .f32⟩
  | 63 => ⟨S_, .f32⟩
  | 64 => ⟨S4096x8192, .f32⟩
  | 65 => ⟨S4096x8192, .f32⟩
  | 66 => ⟨S_, .f32⟩
  | 67 => ⟨S4096x8192, .f32⟩
  | 68 => ⟨S4096x8192, .f32⟩
  | 69 => ⟨S4096x8192, .f32⟩
  | 70 => ⟨S_, .f32⟩
  | 71 => ⟨S4096x8192, .f32⟩
  | 72 => ⟨S4096x8192, .f32⟩
  | 73 => ⟨S_, .f32⟩
  | 74 => ⟨S4096x8192, .f32⟩
  | 75 => ⟨S4096x8192, .f32⟩
  | 76 => ⟨S4096x8192, .f32⟩
  | 77 => ⟨S_, .f32⟩
  | 78 => ⟨S4096x8192, .f32⟩
  | 79 => ⟨S4096x8192, .f32⟩
  | 80 => ⟨S8192x1, .f32⟩
  | 81 => ⟨S8192, .f32⟩
  | 82 => ⟨S1x8192, .f32⟩
  | 83 => ⟨S4096x8192, .f32⟩
  | 84 => ⟨S4096x8192, .f32⟩
  | 85 => ⟨S4096x8192, .f32⟩
  | 86 => ⟨S8192x1, .f32⟩
  | 87 => ⟨S8192, .f32⟩
  | 88 => ⟨S1x8192, .f32⟩
  | 89 => ⟨S4096x8192, .f32⟩
  | 90 => ⟨S4096x8192, .f32⟩
  | 91 => ⟨S4096x8192, .f32⟩
  | 92 => ⟨S8192x1, .f32⟩
  | 93 => ⟨S8192, .f32⟩
  | 94 => ⟨S1x8192, .f32⟩
  | 95 => ⟨S4096x8192, .f32⟩
  | 96 => ⟨S4096x8192, .f32⟩
  | 97 => ⟨S4096x8192, .f32⟩
  | 98 => ⟨S8192x1, .f32⟩
  | 99 => ⟨S8192, .f32⟩
  | 100 => ⟨S1x8192, .f32⟩
  | 101 => ⟨S4096x8192, .f32⟩
  | 102 => ⟨S4096x8192, .f32⟩
  | 103 => ⟨S4096x8192, .f32⟩
  | 104 => ⟨S8192x1, .f32⟩
  | 105 => ⟨S8192, .f32⟩
  | 106 => ⟨S1x8192, .f32⟩
  | 107 => ⟨S4096x8192, .f32⟩
  | 108 => ⟨S4096x8192, .f32⟩
  | 109 => ⟨S4096x8192, .f32⟩
  | 110 => ⟨S8192x1, .f32⟩
  | 111 => ⟨S8192, .f32⟩
  | 112 => ⟨S1x8192, .f32⟩
  | 113 => ⟨S4096x8192, .f32⟩
  | 114 => ⟨S4096x8192, .f32⟩
  | 115 => ⟨S4096x8192, .f32⟩
  | 116 => ⟨S8192x1, .f32⟩
  | 117 => ⟨S8192, .f32⟩
  | 118 => ⟨S1x8192, .f32⟩
  | 119 => ⟨S4096x8192, .f32⟩
  | 120 => ⟨S4096x8192, .f32⟩
  | 121 => ⟨S4096x8192, .f32⟩
  | 122 => ⟨S8192x1, .f32⟩
  | 123 => ⟨S8192, .f32⟩
  | 124 => ⟨S1x8192, .f32⟩
  | 125 => ⟨S4096x8192, .f32⟩
  | 126 => ⟨S4096x8192, .f32⟩
  | 127 => ⟨S4096x8192, .f32⟩
  | _ => ⟨S4096x4096, .f32⟩

abbrev hbmTy0_1 (i : Nat) : BufTy := match i % 128 with
  | 0 => ⟨S8192x1, .f32⟩
  | 1 => ⟨S8192, .f32⟩
  | 2 => ⟨S1x8192, .f32⟩
  | 3 => ⟨S4096x8192, .f32⟩
  | 4 => ⟨S4096x8192, .f32⟩
  | 5 => ⟨S4096x8192, .f32⟩
  | 6 => ⟨S8192x1, .f32⟩
  | 7 => ⟨S8192, .f32⟩
  | 8 => ⟨S1x8192, .f32⟩
  | 9 => ⟨S4096x8192, .f32⟩
  | 10 => ⟨S4096x8192, .f32⟩
  | 11 => ⟨S4096x8192, .f32⟩
  | 12 => ⟨S8192x1, .f32⟩
  | 13 => ⟨S8192, .f32⟩
  | 14 => ⟨S1x8192, .f32⟩
  | 15 => ⟨S4096x8192, .f32⟩
  | 16 => ⟨S4096x8192, .f32⟩
  | 17 => ⟨S4096x8192, .f32⟩
  | 18 => ⟨S8192x1, .f32⟩
  | 19 => ⟨S8192, .f32⟩
  | 20 => ⟨S1x8192, .f32⟩
  | 21 => ⟨S4096x8192, .f32⟩
  | 22 => ⟨S4096x8192, .f32⟩
  | 23 => ⟨S4096x8192, .f32⟩
  | 24 => ⟨S8192x1, .f32⟩
  | 25 => ⟨S8192, .f32⟩
  | 26 => ⟨S1x8192, .f32⟩
  | 27 => ⟨S4096x8192, .f32⟩
  | 28 => ⟨S4096x8192, .f32⟩
  | 29 => ⟨S4096x8192, .f32⟩
  | 30 => ⟨S8192x1, .f32⟩
  | 31 => ⟨S8192, .f32⟩
  | 32 => ⟨S1x8192, .f32⟩
  | 33 => ⟨S4096x8192, .f32⟩
  | 34 => ⟨S4096x8192, .f32⟩
  | 35 => ⟨S4096x8192, .f32⟩
  | 36 => ⟨S8192x1, .f32⟩
  | 37 => ⟨S8192, .f32⟩
  | 38 => ⟨S1x8192, .f32⟩
  | 39 => ⟨S4096x8192, .f32⟩
  | 40 => ⟨S4096x8192, .f32⟩
  | 41 => ⟨S4096x8192, .f32⟩
  | 42 => ⟨S8192x1, .f32⟩
  | 43 => ⟨S8192, .f32⟩
  | 44 => ⟨S1x8192, .f32⟩
  | 45 => ⟨S4096x8192, .f32⟩
  | 46 => ⟨S4096x8192, .f32⟩
  | 47 => ⟨S4096x8192, .f32⟩
  | _ => ⟨S4096x4096, .f32⟩

abbrev hbmTy (i : Nat) : BufTy := match i / 128 with
  | 0 => hbmTy0_0 i
  | 1 => hbmTy0_1 i
  | _ => ⟨S4096x4096, .f32⟩

abbrev bufTy : (tb : Table) → Fin (tcTables nBuf tb) → BufTy
  | .hbm, ⟨i, _⟩ => hbmTy i
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_8 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_cst_11 : Ref sig .tc := ⟨.hbm, 63, rfl⟩
abbrev main_v46 : Ref sig .tc := ⟨.hbm, 64, rfl⟩
abbrev main_v47 : Ref sig .tc := ⟨.hbm, 65, rfl⟩
abbrev main_cst_12 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_13 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_v108 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_v116 : Ref sig .tc := ⟨.hbm, 138, rfl⟩
abbrev main_v117 : Ref sig .tc := ⟨.hbm, 139, rfl⟩
abbrev main_v118 : Ref sig .tc := ⟨.hbm, 140, rfl⟩
abbrev main_v119 : Ref sig .tc := ⟨.hbm, 141, rfl⟩
abbrev main_v120 : Ref sig .tc := ⟨.hbm, 142, rfl⟩
abbrev main_v121 : Ref sig .tc := ⟨.hbm, 143, rfl⟩
abbrev main_v122 : Ref sig .tc := ⟨.hbm, 144, rfl⟩
abbrev main_v123 : Ref sig .tc := ⟨.hbm, 145, rfl⟩
abbrev main_v124 : Ref sig .tc := ⟨.hbm, 146, rfl⟩
abbrev main_v125 : Ref sig .tc := ⟨.hbm, 147, rfl⟩
abbrev main_v126 : Ref sig .tc := ⟨.hbm, 148, rfl⟩
abbrev main_v127 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_v132 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  reducesTo_S8192x16_S8192_d1 : S8192x16.ReducesTo [1] S8192
  h_S_ : 0 < S_.numel
  bcast_S8192x1_S8192x16_0_1 : S8192x1.BroadcastsInDim S8192x16 (![0, 1] : Fin 2 → Fin S8192x16.rank)
  bcast_S_S4096x8192 : S_.BroadcastsInDim S4096x8192 (![] : Fin 0 → Fin S4096x8192.rank)
  slices_S8192x16_S8192x1_0_0 : S8192x16.Slices ![0, 0] S8192x1
  shapeCasts_S8192x1_S8192 : S8192x1.ShapeCasts S8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S8192x16_S8192x1_0_1 : S8192x16.Slices ![0, 1] S8192x1
  slices_S8192x16_S8192x1_0_2 : S8192x16.Slices ![0, 2] S8192x1
  slices_S8192x16_S8192x1_0_3 : S8192x16.Slices ![0, 3] S8192x1
  slices_S8192x16_S8192x1_0_4 : S8192x16.Slices ![0, 4] S8192x1
  slices_S8192x16_S8192x1_0_5 : S8192x16.Slices ![0, 5] S8192x1
  slices_S8192x16_S8192x1_0_6 : S8192x16.Slices ![0, 6] S8192x1
  slices_S8192x16_S8192x1_0_7 : S8192x16.Slices ![0, 7] S8192x1
  slices_S8192x16_S8192x1_0_8 : S8192x16.Slices ![0, 8] S8192x1
  slices_S8192x16_S8192x1_0_9 : S8192x16.Slices ![0, 9] S8192x1
  slices_S8192x16_S8192x1_0_10 : S8192x16.Slices ![0, 10] S8192x1
  slices_S8192x16_S8192x1_0_11 : S8192x16.Slices ![0, 11] S8192x1
  slices_S8192x16_S8192x1_0_12 : S8192x16.Slices ![0, 12] S8192x1
  slices_S8192x16_S8192x1_0_13 : S8192x16.Slices ![0, 13] S8192x1
  slices_S8192x16_S8192x1_0_14 : S8192x16.Slices ![0, 14] S8192x1
  slices_S8192x16_S8192x1_0_15 : S8192x16.Slices ![0, 15] S8192x1
  gather_S4096x4096_S8192x1_S4096x8192_0_1_n_n_1_1_40961_wf : GatherDims.WF S4096x4096 S8192x1 S4096x8192 [0] [1] [] [1] [] 1 ![4096, 1]

variable [Facts₀]

def gather_S4096x4096_S8192x1_S4096x8192_0_1_n_n_1_1_40961 : GatherDims S4096x4096 S8192x1 S4096x8192 where
  offsetDims := [0]
  collapsedSliceDims := [1]
  operandBatchingDims := []
  startIndicesBatchingDims := []
  startIndexMap := [1]
  indexVectorDim := 1
  sliceSizes := ![4096, 1]
  wf := gather_S4096x4096_S8192x1_S4096x8192_0_1_n_n_1_1_40961_wf

class Facts : Prop extends Facts₀ where

variable [Facts]
-- ==== Proof.KernelFrame.lean ====
/-
  The frame of `Kernel`, at any float instance: the program runs to the end without a fault and leaves its four
  argument arrays as launched; and, for the value claim, its run with every array of the one pipeline named.

  @main is three stretches of host operations (two gathers with the negative-index wrap and the range mask; the softmax
  of the weights, its sixteen columns, the four coefficient rows and their stack) and then ONE pallas_call on a
  8 × 8 grid of points. At point `(i, j)` the pipeline stages block `(i, j)` of the two gathered `[4096, 8192]` arrays
  (512 × 1024 entries each) and block `(0, j)` of the `[4, 8192]` coefficient array (4 × 1024), the body loads the three
  whole staging buffers, computes one 512 × 1024 value from them and stores it over the whole output buffer, which is
  written back as block `(i, j)` of the result. The body keeps nothing between points and touches nothing else, so the
  invariant is the class's own (the scoped rest and the generator register, untouched).

  `V` is what the device's buffers hold when the region is entered (the fold of the host operations over the launch
  contents); no host operation writes an argument array, so each is found as launched (`V_main_argK`). `out0_3` is what
  the body leaves in the output's staging buffer as a function of the three input blocks (its one covering store),
  `sound_kernel` the body's triple, `dats` the proof data, `run_main` the run and `frame` the frame claim's post.
-/
import proofs.«429068_j81123342287625_2_alg».proof.Proof.Gen.Kernel.Launch
import proofs.«429068_j81123342287625_2_alg».proof.Proof.Gen.Kernel.Skeleton
import proofs.«429068_j81123342287625_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main up to the region: the three lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes an argument array: the region finds each as launched. -/
theorem V_arg (c : Dev nD) (r : Ref sig .tc) (hr : r = main_arg0 ∨ r = main_arg1 ∨ r = main_arg2 ∨ r = main_arg3) :
    V m c r = m ((c : Thread nD τ).loc r) :=
  StableHlo.after_of_forall_not_mem (b := Proc.devRef .tc r) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    rcases hr with rfl | rfl | rfl | rfl
    all_goals (repeat' apply And.intro)
    all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over `V` whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) h

/-! ## The body -/

/-- The whole 512 × 1024 staging buffer, and the whole 4 × 1024 one. -/
abbrev rBig : Rect S512x1024 := Rect.unit (s := S512x1024) ![0, 0] S512x1024.size inb_S512x1024_S512x1024_0_0
abbrev rCoef : Rect S4x1024 := Rect.unit (s := S4x1024) ![0, 0] S4x1024.size inb_S4x1024_S4x1024_0_0

/-- What the body leaves in the output's staging buffer: its one store, of the payload over the three loaded blocks. -/
def out0_3 (x0 x1 : Vec F S512x1024 .f32) (x2 : Vec F S4x1024 .f32) : Vec F S512x1024 .f32 :=
  View.canon [⟨rBig, k0_pay1 (View.ld x0 rBig) (View.ld x1 rBig) (View.ld x2 rCoef)⟩]

/-- The store covers the buffer. -/
theorem cover0_3 (p0 : Vec F S512x1024 .f32) (y : S512x1024.Idx) :
    ∃ pc ∈ ([⟨rBig, p0⟩] : List (View.Piece (Elt F) S512x1024 .f32)), y ∈ pc.1.set :=
  View.cover_of_tiled [⟨rBig, p0⟩] S512x1024.size (by rfl) y

set_option maxHeartbeats 1000000 in
/-- The body on whole staging memrefs, the inputs' at contents `x0 x1 x2` and the output's at anything: it runs to the
    continuation with the inputs' as they were and the output's at `out0_3` of them. -/
theorem sound_kernel (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S4x1024 .f32) (harg4 : arg4.IsWhole) (arg5 : Memref sig .tc .vmem S512x1024 .f32) (harg5 : arg5.IsWhole)
    (x0 x1 : Vec F S512x1024 .f32) (x2 : Vec F S4x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.Kernel.Hand

end
-- ==== Proof.KernelIdealFrame.lean ====
/-
  The frame of `KernelIdeal`, at any float instance: the program runs to the end without a fault and leaves its four
  argument arrays as launched; and, for the value claim, its run with every array of the one pipeline named.

  @main is three stretches of host operations (two gathers with the negative-index wrap and the range mask; the softmax
  of the weights, its sixteen columns, the four coefficient rows and their stack) and then ONE pallas_call on a
  8 × 8 grid of points. At point `(i, j)` the pipeline stages block `(i, j)` of the two gathered `[4096, 8192]` arrays
  (512 × 1024 entries each) and block `(0, j)` of the `[4, 8192]` coefficient array (4 × 1024), the body loads the three
  whole staging buffers, computes one 512 × 1024 value from them and stores it over the whole output buffer, which is
  written back as block `(i, j)` of the result. The body keeps nothing between points and touches nothing else, so the
  invariant is the class's own (the scoped rest and the generator register, untouched).

  `V` is what the device's buffers hold when the region is entered (the fold of the host operations over the launch
  contents); no host operation writes an argument array, so each is found as launched (`V_main_argK`). `out0_3` is what
  the body leaves in the output's staging buffer as a function of the three input blocks (its one covering store),
  `sound_kernel` the body's triple, `dats` the proof data, `run_main` the run and `frame` the frame claim's post.
-/
import proofs.«429068_j81123342287625_2_alg».proof.Proof.Gen.KernelIdeal.Launch
import proofs.«429068_j81123342287625_2_alg».proof.Proof.Gen.KernelIdeal.Skeleton
import proofs.«429068_j81123342287625_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the three stretches of host operations. -/
abbrev V (c : Dev nD) (b : Ref sig .tc) : Buf (Elt F) ((c : Thread nD τ).loc b) :=
  StableHlo.after (List.flatten [hostOps0, hostOps0_1, hostOps0_2]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
set_option maxHeartbeats 4000000 in
theorem hostOps0_2_fresh : (hostOps0_2 : List (HloOp τ sig (Elt F))).Forall fun op => op.fresh = ∅ := by
  simp only [List.Forall]; repeat' constructor

/-- @main up to the region: the three lines of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2]
    (by simp only [List.Forall]; exact ⟨hostOps0_sub, hostOps0_1_sub, hostOps0_2_sub⟩)
    (by simp only [List.Forall]; exact ⟨hostOps0_fresh, hostOps0_1_fresh, hostOps0_2_fresh⟩) main_chain

set_option maxHeartbeats 4000000 in
/-- No host operation writes an argument array: the region finds each as launched. -/
theorem V_arg (c : Dev nD) (r : Ref sig .tc) (hr : r = main_arg0 ∨ r = main_arg1 ∨ r = main_arg2 ∨ r = main_arg3) :
    V m c r = m ((c : Thread nD τ).loc r) :=
  StableHlo.after_of_forall_not_mem (b := Proc.devRef .tc r) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    rcases hr with rfl | rfl | rfl | rfl
    all_goals (repeat' apply And.intro)
    all_goals exact StableHlo.devRef_ne_of_ne (by decide)))

theorem V_main_arg0 (c : Dev nD) : V m c main_arg0 = m ((c : Thread nD τ).loc main_arg0) := V_arg m c _ (.inl rfl)
theorem V_main_arg1 (c : Dev nD) : V m c main_arg1 = m ((c : Thread nD τ).loc main_arg1) := V_arg m c _ (.inr (.inl rfl))
theorem V_main_arg2 (c : Dev nD) : V m c main_arg2 = m ((c : Thread nD τ).loc main_arg2) := V_arg m c _ (.inr (.inr (.inl rfl)))
theorem V_main_arg3 (c : Dev nD) : V m c main_arg3 = m ((c : Thread nD τ).loc main_arg3) := V_arg m c _ (.inr (.inr (.inr rfl)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, for any proof data over `V` whose body leaves the
    block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from a frame run -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩) h

/-! ## The body -/

/-- The whole 512 × 1024 staging buffer, and the whole 4 × 1024 one. -/
abbrev rBig : Rect S512x1024 := Rect.unit (s := S512x1024) ![0, 0] S512x1024.size inb_S512x1024_S512x1024_0_0
abbrev rCoef : Rect S4x1024 := Rect.unit (s := S4x1024) ![0, 0] S4x1024.size inb_S4x1024_S4x1024_0_0

/-- What the body leaves in the output's staging buffer: its one store, of the payload over the three loaded blocks. -/
def out0_3 (x0 x1 : Vec F S512x1024 .f32) (x2 : Vec F S4x1024 .f32) : Vec F S512x1024 .f32 :=
  View.canon [⟨rBig, k0_pay1 (View.ld x0 rBig) (View.ld x1 rBig) (View.ld x2 rCoef)⟩]

/-- The store covers the buffer. -/
theorem cover0_3 (p0 : Vec F S512x1024 .f32) (y : S512x1024.Idx) :
    ∃ pc ∈ ([⟨rBig, p0⟩] : List (View.Piece (Elt F) S512x1024 .f32)), y ∈ pc.1.set :=
  View.cover_of_tiled [⟨rBig, p0⟩] S512x1024.size (by rfl) y

set_option maxHeartbeats 1000000 in
/-- The body on whole staging memrefs, the inputs' at contents `x0 x1 x2` and the output's at anything: it runs to the
    continuation with the inputs' as they were and the output's at `out0_3` of them. -/
theorem sound_kernel (c : Dev nD) (E : Set ℕ) (i : grid0.Coords)
    (arg2 : Memref sig .tc .vmem S512x1024 .f32) (harg2 : arg2.IsWhole) (arg3 : Memref sig .tc .vmem S512x1024 .f32) (harg3 : arg3.IsWhole)
    (arg4 : Memref sig .tc .vmem S4x1024 .f32) (harg4 : arg4.IsWhole) (arg5 : Memref sig .tc .vmem S512x1024 .f32) (harg5 : arg5.IsWhole)
    (x0 x1 : Vec F S512x1024 .f32) (x2 : Vec F S4x1024 .f32) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (out0_3 x0 x1 x2)) -∗ K ⟨⟩))
      ⊢ wp frame (wpE (defs₀ (F := F)) Variants.none c none) E (cc0__combine_kernel i arg2 harg2 arg3 harg3 arg4 harg4 arg5 harg5) K := by
  simp only [cc0__combine_kernel_eq_skeleton]; unfold cc0__combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => out0_3 (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = out0_3 (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim's post, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

end Cert.KernelIdeal.Hand

end
-- ==== Proof.Spec.lean ====
/-
  What both programs compute, stated once and free of either program's text.

  For an output column `j` let `w 0 … w 15` be the softmax of row `j` of the weights and, for a batch row `r`,
  `a = x[r, ia j]`, `b = x[r, ib j]` the two gathered entries. The reference adds the sixteen soft logic gates
  `w i · gate_i(a, b)` one after the other (`gateSum`). The kernel first collects, per column, the coefficients of
  `1`, `a`, `b` and `a·b` in that sum (`coef0 … coef3`) and then evaluates `c0 + c1·a + c2·b + c3·(a·b)`
  (`combine`). Over the reals the two are one polynomial in `a`, `b`, `w` (`combine_eq_gateSum`); on the extended
  reals the identity needs every `w i`, `a` and `b` finite, because it moves a factor across a difference.

  The softmax (`softmaxT`) and the gather with numpy's negative-index wrap (`takeT`) are the same chains of host
  operations in both programs; they are stated here over their stated side conditions so that each program's term is
  an instance.
-/
import Idealize.ShloMosaic.PureOps
import Idealize.ShloMosaic.PureOps.Ideal
import Idealize.ShloMosaic.Lib.ValueIdx

noncomputable section

namespace Cert.Spec

open Idealize.ShloMosaic

abbrev SX : Shape := ⟨2, ![4096, 4096]⟩
abbrev SW : Shape := ⟨2, ![8192, 16]⟩
abbrev SI : Shape := ⟨1, ![8192]⟩
abbrev S0 : Shape := ⟨0, ![]⟩
abbrev SI1 : Shape := ⟨2, ![8192, 1]⟩
abbrev SO : Shape := ⟨2, ![4096, 8192]⟩
abbrev SC : Shape := ⟨2, ![4, 8192]⟩

/-! ## The two arrangements of the sixteen gates -/

/-- The sixteen gates weighted and added in the reference's order, starting from `0`. -/
def gateSum (w : Fin 16 → EReal) (a b : EReal) : EReal :=
  (((((((((((((((((0 : EReal) + w 0 * 0) + w 1 * (a * b)) + w 2 * (a - a * b)) + w 3 * a) + w 4 * (b - a * b)) + w 5 * b)
    + w 6 * ((a + b) - 2 * (a * b))) + w 7 * ((a + b) - a * b)) + w 8 * (1 - ((a + b) - a * b)))
    + w 9 * (1 - ((a + b) - 2 * (a * b)))) + w 10 * (1 - b)) + w 11 * ((1 - b) + a * b)) + w 12 * (1 - a))
    + w 13 * ((1 - a) + a * b)) + w 14 * (1 - a * b)) + w 15 * 1)

/-- The coefficient of `1`. -/
def coef0 (w : Fin 16 → EReal) : EReal := ((((((w 8 + w 9) + w 10) + w 11) + w 12) + w 13) + w 14) + w 15
/-- The coefficient of `a`. -/
def coef1 (w : Fin 16 → EReal) : EReal := ((((((w 2 + w 3) + w 6) + w 7) - w 8) - w 9) - w 12) - w 13
/-- The coefficient of `b`. -/
def coef2 (w : Fin 16 → EReal) : EReal := ((((((w 4 + w 5) + w 6) + w 7) - w 8) - w 9) - w 10) - w 11
/-- The coefficient of `a·b`. -/
def coef3 (w : Fin 16 → EReal) : EReal :=
  ((((((((w 1 - w 2) - w 4) - 2 * w 6) - w 7) + w 8) + 2 * w 9) + w 11) + w 13) - w 14

/-- The four coefficients by row of the stacked `[4, 8192]` array. -/
def coef (k : Fin 4) (w : Fin 16 → EReal) : EReal :=
  match k with
  | 0 => coef0 w
  | 1 => coef1 w
  | 2 => coef2 w
  | 3 => coef3 w

/-- The kernel's evaluation order. -/
def combine (c0 c1 c2 c3 a b : EReal) : EReal := ((c0 + c1 * a) + c2 * b) + c3 * (a * b)

/-! ## The shared host chains -/

/-- Row softmax of a `[8192, 16]` array as both programs' host operations compute it: the row maximum (a max-reduce
    from `-∞`, then once more the maximum with `-∞`), the exponentials of the differences, their row sum from `0`,
    the quotient. -/
def softmaxT {F : FTy → Type} [FloatOps F] (hr : SW.ReducesTo [1] SI) (h0 : 0 < S0.numel)
    (hb0 : S0.BroadcastsInDim SI (![] : Fin 0 → Fin SI.rank))
    (hb1 : SI.BroadcastsInDim SI1 (![0] : Fin 1 → Fin SI1.rank))
    (hb2 : SI1.BroadcastsInDim SW (![0, 1] : Fin 2 → Fin SW.rank))
    (x : FVec F SW .f32) : FVec F SW .f32 :=
  Host.divf
    (Host.exp (subf x (broadcastInDim SW ![0, 1] hb2 (broadcastInDim SI1 ![0] hb1
      (maximumf (broadcastInDim SI ![] hb0 (constant S0 .f32 0xFF800000#32))
        (Host.reduce FloatOps.maximumf x (constant S0 .f32 0xFF800000#32) hr h0))))))
    (broadcastInDim SW ![0, 1] hb2 (broadcastInDim SI1 ![0] hb1
      (Host.reduceAdd
        (Host.exp (subf x (broadcastInDim SW ![0, 1] hb2 (broadcastInDim SI1 ![0] hb1
          (maximumf (broadcastInDim SI ![] hb0 (constant S0 .f32 0xFF800000#32))
            (Host.reduce FloatOps.maximumf x (constant S0 .f32 0xFF800000#32) hr h0))))))
        (constant S0 .f32 0x00000000#32) hr h0)))

/-- numpy's wrap of a negative index: `i < 0 ↦ i + 4096`, else `i`. -/
def wrapIdx (hb0 : S0.BroadcastsInDim SI (![] : Fin 0 → Fin SI.rank)) (idx : IVec SI 32) : IVec SI 32 :=
  select (cmpi .slt idx (broadcastInDim SI ![] hb0 (constantI S0 32 0#32)))
    (addi idx (broadcastInDim SI ![] hb0 (constantI S0 32 4096#32))) idx

/-- Every index is one numpy accepts for an axis of extent 4096: `-4096 ≤ i < 4096` as signed words. -/
def InRange (idx : IVec SI 32) : Prop := ∀ j : SI.Idx, (-4096 : Int) ≤ (idx j).toInt ∧ (idx j).toInt < 4096

/-- The columns of `x` at the wrapped indices: `[4096, 8192]`. -/
def takeT {α : Type} (d : GatherDims SX SI1 SO) (hb0 : S0.BroadcastsInDim SI (![] : Fin 0 → Fin SI.rank))
    (hb1 : SI.BroadcastsInDim SI1 (![0] : Fin 1 → Fin SI1.rank))
    (x : SX.Idx → α) (idx : IVec SI 32) : SO.Idx → α :=
  Host.gather d x (broadcastInDim SI1 ![0] hb1 (wrapIdx hb0 idx))

end Cert.Spec

end
-- ==== Proof.KernelIdealValue.lean ====
import proofs.«429068_j81123342287625_2_alg».proof.Proof.KernelIdealFrame
import proofs.«429068_j81123342287625_2_alg».proof.Proof.Spec
import Idealize.ShloMosaic.Lib.ValueIdx
import Idealize.ShloMosaic.Lib.Pipeline.Value

noncomputable section

namespace Cert.KernelIdeal.HandValue

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (ρ : Dev nD → PrngReg)

/-- The result at row `r`, column `j`, from the two gathered arrays and the stacked coefficients. -/
def outAt (A B : S4096x8192.Idx → EReal) (C : S4x8192.Idx → EReal) (r : Fin 4096) (j : Fin 8192) : EReal :=
  Cert.Spec.combine (C (ix2 (0 : Fin 4) j)) (C (ix2 (1 : Fin 4) j)) (C (ix2 (2 : Fin 4) j)) (C (ix2 (3 : Fin 4) j))
    (A (ix2 r j)) (B (ix2 r j))

/-- The result array as ONE function of the three arrays the pipeline stages. -/
def outArr (A B : S4096x8192.Idx → EReal) (C : S4x8192.Idx → EReal) : S4096x8192.Idx → EReal :=
  fun i => outAt A B C (i 0) (i 1)

/-! ## The body's value at an index -/
/-- A row of the coefficient block, broadcast down the rows, read at an index. -/
theorem row_apply (x2 : Vec Ideal S4x1024 .f32) (o : Nat) (ho : o < 4) (hs : S4x1024.Slices ![o, 0] S1x1024)
    (p : Fin 512) (q : Fin 1024) :
    broadcastTo S512x1024 (extractStridedSlice S1x1024 ![o, 0] x2 hs) broadcasts_S1x1024_S512x1024 (ix2 p q)
      = x2 (ix2 (⟨o, ho⟩ : Fin 4) q) := by
  refine (broadcastTo_apply _ _ (ix2 p q) (ix2 (0 : Fin 1) q) (fun a => ?_)).trans ?_
  · match a with
    | ⟨0, _⟩ => rfl
    | ⟨1, _⟩ => rfl
  · refine extractStridedSlice_apply _ _ _ _ (ix2 (⟨o, ho⟩ : Fin 4) q) (fun a => ?_)
    match a with
    | ⟨0, _⟩ => show o = o + 0; omega
    | ⟨1, _⟩ => show q.val = 0 + q.val; omega

/-- The body's value at row `p`, column `q` of a block: the four coefficient rows at column `q` combined with the
    two blocks' entries there, in the body's order of evaluation. -/
theorem pay_apply (x0 x1 : Vec Ideal S512x1024 .f32) (x2 : Vec Ideal S4x1024 .f32) (p : Fin 512) (q : Fin 1024) :
    k0_pay1 x0 x1 x2 (ix2 p q)
      = Cert.Spec.combine (x2 (ix2 (0 : Fin 4) q)) (x2 (ix2 (1 : Fin 4) q)) (x2 (ix2 (2 : Fin 4) q)) (x2 (ix2 (3 : Fin 4) q))
          (x0 (ix2 p q)) (x1 (ix2 p q)) := by
  unfold k0_pay1 Cert.Spec.combine
  simp only [shapeCast_self, addf_apply, mulf_apply]
  rw [row_apply x2 0 (by omega), row_apply x2 1 (by omega), row_apply x2 2 (by omega), row_apply x2 3 (by omega)]
  rfl

/-- The zero offsets, however spelt. -/
theorem hz : (![0, 0] : Fin 2 → Nat) = fun _ => 0 := funext fun a => by fin_cases a <;> rfl

/-- The windows' index maps over the grid: the two gathered arrays' blocks move with the result's, the coefficient
    block stays on row block 0 and moves with the result's columns; the result's block indices stay below 8. -/
theorem idx_facts : ∀ t : Fin cfg0.N,
    win0_0.index t (0 : Fin 2) = win0_3.index t (0 : Fin 2) ∧ win0_0.index t (1 : Fin 2) = win0_3.index t (1 : Fin 2)
    ∧ win0_1.index t (0 : Fin 2) = win0_3.index t (0 : Fin 2) ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 7 ∧ win0_3.index t (1 : Fin 2) ≤ 7 :=
  (by decide +kernel : ∀ t : Fin grid0.N, _)

/-- Entry `(p, q)` of the first gathered array's block at point `t` is the array's entry at block index times block
    size plus the coordinate inside the block, on each axis. -/
theorem blk0_read (c : Dev nD) (t : Fin cfg0.N) (p : Fin 512) (q : Fin 1024) (r : Fin 4096) (s : Fin 8192)
    (hr : r.val = win0_0.index t (0 : Fin 2) * 512 + p.val) (hs : s.val = win0_0.index t (1 : Fin 2) * 1024 + q.val) :
    iblk m c 0 t (ix2 p q) = V m c main_v0 (ix2 r s) := by
  unfold iblk; rw [View.read_apply]; refine congrArg (V m c main_v0) ?_
  funext a; apply Fin.ext
  match a with
  | ⟨0, _⟩ => show win0_0.index t (0 : Fin 2) * 512 + 1 * p.val = r.val; omega
  | ⟨1, _⟩ => show win0_0.index t (1 : Fin 2) * 1024 + 1 * q.val = s.val; omega

/-- The same for the second gathered array. -/
theorem blk1_read (c : Dev nD) (t : Fin cfg0.N) (p : Fin 512) (q : Fin 1024) (r : Fin 4096) (s : Fin 8192)
    (hr : r.val = win0_1.index t (0 : Fin 2) * 512 + p.val) (hs : s.val = win0_1.index t (1 : Fin 2) * 1024 + q.val) :
    iblk m c 1 t (ix2 p q) = V m c main_v1 (ix2 r s) := by
  unfold iblk; rw [View.read_apply]; refine congrArg (V m c main_v1) ?_
  funext a; apply Fin.ext
  match a with
  | ⟨0, _⟩ => show win0_1.index t (0 : Fin 2) * 512 + 1 * p.val = r.val; omega
  | ⟨1, _⟩ => show win0_1.index t (1 : Fin 2) * 1024 + 1 * q.val = s.val; omega

/-- Row `k`, column `q` of the coefficient block at a point whose row block index is `0`: the array's row `k` at
    the column the block index gives. -/
theorem blk2_read (c : Dev nD) (t : Fin cfg0.N) (k : Fin 4) (q : Fin 1024) (s : Fin 8192)
    (h0 : win0_2.index t (0 : Fin 2) = 0) (hs : s.val = win0_2.index t (1 : Fin 2) * 1024 + q.val) :
    iblk m c 2 t (ix2 k q) = V m c main_v83 (ix2 k s) := by
  unfold iblk; rw [View.read_apply]; refine congrArg (V m c main_v83) ?_
  funext a; apply Fin.ext
  match a with
  | ⟨0, _⟩ => show win0_2.index t (0 : Fin 2) * 4 + 1 * k.val = k.val; omega
  | ⟨1, _⟩ => show win0_2.index t (1 : Fin 2) * 1024 + 1 * q.val = s.val; omega

/-- Where an entry of the result's block at point `t` sits in the result array. -/
theorem emb3_val (t : Fin cfg0.N) (j : ((cfg0.win 3).xblock (grid0.coords t)).Idx) :
    ((((cfg0.win 3).blk t).view.emb j) 0).val = win0_3.index t (0 : Fin 2) * 512 + (j 0).val
    ∧ ((((cfg0.win 3).blk t).view.emb j) 1).val = win0_3.index t (1 : Fin 2) * 1024 + (j 1).val := by
  constructor
  · show win0_3.index t (0 : Fin 2) * 512 + 1 * (j 0).val = _; omega
  · show win0_3.index t (1 : Fin 2) * 1024 + 1 * (j 1).val = _; omega

/-- What point `t` writes back is block `t` of `outArr` of the three staged arrays as the region found them. -/
theorem flushed3_eq (c : Dev nD) (t : Fin cfg0.N) :
    (dats (F := Ideal) m 0 c).flushed 3 t
      = ((cfg0.win 3).blk t).view.read (Elt Ideal) (outArr (V m c main_v0) (V m c main_v1) (V m c main_v83)) := by
  show (cfg0.win 3).cut (grid0.coords t) ((dats m 0 c).after 3 t) = _
  rw [after0_3]
  unfold out0_3
  rw [View.canon_unit_zero hz]
  simp only [View.ld_unit_zero (S := S512x1024) hz, View.ld_unit_zero (S := S4x1024) hz]
  obtain ⟨e0, e1, e2, e3, e4, e5, e6, e7⟩ := idx_facts t
  funext j
  have hp : (j 0).val < 512 := (j 0).isLt
  have hq : (j 1).val < 1024 := (j 1).isLt
  have hj : (win0 3).xinj (grid0.coords t) j = ix2 (⟨(j 0).val, hp⟩ : Fin 512) (⟨(j 1).val, hq⟩ : Fin 1024) := by
    funext a
    match a with
    | ⟨0, _⟩ => rfl
    | ⟨1, _⟩ => rfl
  obtain ⟨r0, r1⟩ := emb3_val t j
  show k0_pay1 (iblk m c 0 t) (iblk m c 1 t) (iblk m c 2 t) ((win0 3).xinj (grid0.coords t) j) = _
  rw [hj, pay_apply, View.read_apply]
  show _ = outAt (V m c main_v0) (V m c main_v1) (V m c main_v83) ((((cfg0.win 3).blk t).view.emb j) 0) ((((cfg0.win 3).blk t).view.emb j) 1)
  unfold outAt
  rw [blk2_read m c t 0 _ ((((cfg0.win 3).blk t).view.emb j) 1) e4 (by rw [r1, e5]),
    blk2_read m c t 1 _ ((((cfg0.win 3).blk t).view.emb j) 1) e4 (by rw [r1, e5]),
    blk2_read m c t 2 _ ((((cfg0.win 3).blk t).view.emb j) 1) e4 (by rw [r1, e5]),
    blk2_read m c t 3 _ ((((cfg0.win 3).blk t).view.emb j) 1) e4 (by rw [r1, e5]),
    blk0_read m c t _ _ ((((cfg0.win 3).blk t).view.emb j) 0) ((((cfg0.win 3).blk t).view.emb j) 1) (by rw [r0, e0]) (by rw [r1, e1]),
    blk1_read m c t _ _ ((((cfg0.win 3).blk t).view.emb j) 0) ((((cfg0.win 3).blk t).view.emb j) 1) (by rw [r0, e2]) (by rw [r1, e3])]

/-- An index of the result array is in point `t`'s block iff each coordinate is in the block's range on its axis. -/
theorem mem_blk3 (t : Fin cfg0.N) (i : S4096x8192.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v84).slice (win0_3.rect t)).set ↔ _
  rw [View.set_slice_whole, Rect.mem_set_unit]
  exact Iff.rfl

/-- Every pair of block indices below `(8, 8)` is some point's. -/
theorem idx_onto3 : ∀ (q0 : Fin 8) (q1 : Fin 8), ∃ t : Fin cfg0.N, win0_3.index t = ![q0.val, q1.val] :=
  (by decide +kernel : ∀ (q0 : Fin 8) (q1 : Fin 8), ∃ t : Fin grid0.N, win0_3.index t = ![q0.val, q1.val])

/-- The result's blocks tile its array: row `r`, column `j` is in the block of the point with block indices
    `(r / 512, j / 1024)`. -/
theorem cover3 (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto3 ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk3]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the last point the result's array is `outArr` of the staged arrays as the region found them. -/
theorem final3 (c : Dev nD) :
    (dats (F := Ideal) m 0 c).arrAt 3 cfg0.N = outArr (V m c main_v0) (V m c main_v1) (V m c main_v83) :=
  (dats (F := Ideal) m 0 c).arrAt_eq_of_cover 3 (outArr (V m c main_v0) (V m c main_v1) (V m c main_v83))
    (fun t _ => flushed3_eq m c t) cover3

/-- The kernel's run with its result named. -/
theorem run : θ_run defs (onTc (τ := τ) (main (F := Ideal))) ⟨m, fun _ => 0, ρ⟩ (fun r => ∀ c : Dev nD,
      r.2.mem ((c.tc : Thread nD τ).loc main_v84) = outArr (V m c main_v0) (V m c main_v1) (V m c main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 3).trans (final3 m c),
     ((h c).2 main_arg0 (Pipeline.mem_restRefs_of main_arg0 (by decide) (by decide))).trans (V_main_arg0 m c),
     ((h c).2 main_arg1 (Pipeline.mem_restRefs_of main_arg1 (by decide) (by decide))).trans (V_main_arg1 m c),
     ((h c).2 main_arg2 (Pipeline.mem_restRefs_of main_arg2 (by decide) (by decide))).trans (V_main_arg2 m c),
     ((h c).2 main_arg3 (Pipeline.mem_restRefs_of main_arg3 (by decide) (by decide))).trans (V_main_arg3 m c)⟩)
    (run_main m ρ)

end Cert.KernelIdeal.HandValue

end
-- ==== Proof.SpecMath.lean ====
import proofs.«429068_j81123342287625_2_alg».proof.Proof.Spec

noncomputable section

namespace Cert.Spec

open Idealize.ShloMosaic Idealize.ShloMosaic.TcCoe Idealize.SL.Sem Idealize.ShloMosaic.ValueIdx

/-- The three float literals the programs carry, as extended reals. -/
theorem ofBits_zero : Ideal.ofBits .f32 0x00000000#32 = (0 : EReal) := by
  simp [Ideal.ofBits, Ideal.ieee]
theorem ofBits_one : Ideal.ofBits .f32 0x3F800000#32 = (1 : EReal) := by
  simp [Ideal.ofBits, Ideal.ieee, -EReal.coe_mul]; norm_num
theorem ofBits_two : Ideal.ofBits .f32 0x40000000#32 = (2 : EReal) := by
  simp [Ideal.ofBits, Ideal.ieee, -EReal.coe_mul]; norm_num; rfl

/-- Over the reals the kernel's four-coefficient form and the reference's sixteen-gate sum are one polynomial. -/
theorem combine_eq_gateSum (w : Fin 16 → ℝ) (a b : ℝ) :
    combine (coef0 fun i => ((w i : ℝ) : EReal)) (coef1 fun i => ((w i : ℝ) : EReal)) (coef2 fun i => ((w i : ℝ) : EReal))
        (coef3 fun i => ((w i : ℝ) : EReal)) (a : EReal) (b : EReal)
      = gateSum (fun i => ((w i : ℝ) : EReal)) (a : EReal) (b : EReal) := by
  -- The numeral two of the extended reals is the real two; every atom is then a real, the operations commute with
  -- the inclusion of the reals, and what remains is one identity of real polynomials in the weights, a and b.
  have h2 : (2 : EReal) = ((2 : ℝ) : EReal) := rfl
  simp only [combine, coef0, coef1, coef2, coef3, gateSum, h2]
  simp only [← EReal.coe_add, ← EReal.coe_mul, ← EReal.coe_sub, ← EReal.coe_zero, ← EReal.coe_one]
  congr 1
  ring

end Cert.Spec

end
-- ==== Proof.SpecSoftmax.lean ====
import proofs.«429068_j81123342287625_2_alg».proof.Proof.Spec
import Idealize.ShloMosaic.Lib.IdealHost
import Idealize.ShloMosaic.PureOps.Ideal.Laws
import Idealize.ShloMosaic.PureOps.Reduce
import Mathlib.Data.Finset.Fold
import Mathlib.Data.EReal.Basic

noncomputable section

namespace Cert.Spec

open Idealize.ShloMosaic Idealize.ShloMosaic.TcCoe Idealize.SL.Sem Idealize.ShloMosaic.ValueIdx

open scoped BigOperators

namespace Softmax

/-! ## Finite sums and maxima of real numbers inside the extended reals -/

/-- A finite sum of real numbers taken in the extended reals is the real sum. -/
theorem coe_sum_real {ι : Type} (s : Finset ι) (g : ι → ℝ) :
    ∑ k ∈ s, ((g k : ℝ) : EReal) = ((∑ k ∈ s, g k : ℝ) : EReal) := by
  classical
  refine Finset.induction_on s (by simp) ?_
  intro a s ha ih
  rw [Finset.sum_insert ha, Finset.sum_insert ha, ih, EReal.coe_add]

/-- The maximum of finitely many reals, at least one, started from `-∞`, is a real. -/
theorem fold_max_real {n : ℕ} (hn : 0 < n) (f : Fin n → EReal) (hf : ∀ k, ∃ r : ℝ, f k = (r : EReal)) :
    ∃ m : ℝ, (Finset.univ : Finset (Fin n)).fold max (⊥ : EReal) f = (m : EReal) := by
  have hbot : (Finset.univ : Finset (Fin n)).fold max (⊥ : EReal) f ≠ ⊥ := by
    obtain ⟨r, hr⟩ := hf ⟨0, hn⟩
    have hle : f ⟨0, hn⟩ ≤ (Finset.univ : Finset (Fin n)).fold max (⊥ : EReal) f :=
      (Finset.le_fold_max _).2 (Or.inr ⟨_, Finset.mem_univ _, le_rfl⟩)
    intro e
    rw [e, hr] at hle
    exact EReal.coe_ne_bot r (le_bot_iff.1 hle)
  have htop : (Finset.univ : Finset (Fin n)).fold max (⊥ : EReal) f ≠ ⊤ := by
    have hlt : (Finset.univ : Finset (Fin n)).fold max (⊥ : EReal) f < ⊤ :=
      (Finset.fold_max_lt _).2 ⟨bot_lt_top, fun k _ => by
        obtain ⟨r, hr⟩ := hf k
        rw [hr]; exact EReal.coe_lt_top r⟩
    exact ne_of_lt hlt
  exact ⟨_, (EReal.coe_toReal htop hbot).symm⟩

/-- The pattern of `-∞`. -/
theorem ofBits_neg_inf : Ideal.ofBits .f32 0xFF800000#32 = (⊥ : EReal) := by
  simp [Ideal.ofBits, Ideal.ieee]

/-- The row maximum of finite rows is a real number. -/
theorem rowMax_real (hr : SW.ReducesTo [1] SI) (h0 : 0 < S0.numel)
    (hb0 : S0.BroadcastsInDim SI (![] : Fin 0 → Fin SI.rank))
    (x : FVec Ideal SW .f32) (hx : ∀ i, ∃ r : ℝ, x i = (r : EReal)) (j : SI.Idx) :
    ∃ m : ℝ, maximumf (broadcastInDim SI ![] hb0 (constant (F := Ideal) S0 .f32 0xFF800000#32))
        (Host.reduce FloatOps.maximumf x (constant (F := Ideal) S0 .f32 0xFF800000#32) hr h0) j = (m : EReal) := by
  have hred : SW.Reduces [1] SI := by decide
  rw [maximumf_apply, broadcastInDim_scalar_apply, constant_apply,
    Host.reduce_eq_fold_single _ x _ hr hred h0 j, constant_apply, ofBits_neg_inf, max_bot_left]
  exact fold_max_real (by decide) _ (fun k => hx _)

/-- The exponential of a finite entry less a finite row value (read through the two broadcasts) is a positive real. -/
theorem expSub_pos (hb1 : SI.BroadcastsInDim SI1 (![0] : Fin 1 → Fin SI1.rank))
    (hb2 : SI1.BroadcastsInDim SW (![0, 1] : Fin 2 → Fin SW.rank))
    (x : FVec Ideal SW .f32) (hx : ∀ i, ∃ r : ℝ, x i = (r : EReal))
    (M : FVec Ideal SI .f32) (hM : ∀ j, ∃ m : ℝ, M j = (m : EReal)) (i : SW.Idx) :
    ∃ e : ℝ, 0 < e ∧
      Host.exp (subf x (broadcastInDim SW ![0, 1] hb2 (broadcastInDim SI1 ![0] hb1 M))) i = (e : EReal) := by
  obtain ⟨r, hr⟩ := hx i
  obtain ⟨j, hj⟩ : ∃ j, broadcastInDim SW ![0, 1] hb2 (broadcastInDim SI1 ![0] hb1 M) i = M j := ⟨_, rfl⟩
  obtain ⟨m, hm⟩ := hM j
  refine ⟨Real.exp (r - m), Real.exp_pos _, ?_⟩
  have hread : Host.exp (subf x (broadcastInDim SW ![0, 1] hb2 (broadcastInDim SI1 ![0] hb1 M))) i
      = Ideal.exp (x i - broadcastInDim SW ![0, 1] hb2 (broadcastInDim SI1 ![0] hb1 M) i) := rfl
  rw [hread, hj, hr, hm, ← EReal.coe_sub, Ideal.exp_coe]

/-- The row sum, from `0`, of positive reals is a positive real. -/
theorem rowSum_pos (hr : SW.ReducesTo [1] SI) (h0 : 0 < S0.numel)
    (E : FVec Ideal SW .f32) (hE : ∀ i, ∃ e : ℝ, 0 < e ∧ E i = (e : EReal)) (j : SI.Idx) :
    ∃ s : ℝ, 0 < s ∧ Host.reduceAdd E (constant (F := Ideal) S0 .f32 0x00000000#32) hr h0 j = (s : EReal) := by
  have hred : SW.Reduces [1] SI := by decide
  choose g hg0 hg using hE
  rw [hostReduceAdd_apply, constant_apply, Ideal.ofBits_zero_f32, Ideal.hostReduceAdd_single hr hred, zero_add]
  refine ⟨∑ k, g (hred.lift j k), Finset.sum_pos (fun k _ => hg0 _) ⟨⟨0, by decide⟩, Finset.mem_univ _⟩, ?_⟩
  rw [← coe_sum_real]
  exact Finset.sum_congr rfl (fun k _ => hg _)

/-- A real entry divided by a positive real row value (read through the two broadcasts) is a real. -/
theorem divBcast_real (hb1 : SI.BroadcastsInDim SI1 (![0] : Fin 1 → Fin SI1.rank))
    (hb2 : SI1.BroadcastsInDim SW (![0, 1] : Fin 2 → Fin SW.rank))
    (N : FVec Ideal SW .f32) (hN : ∀ i, ∃ e : ℝ, N i = (e : EReal))
    (D : FVec Ideal SI .f32) (hD : ∀ j, ∃ s : ℝ, 0 < s ∧ D j = (s : EReal)) (i : SW.Idx) :
    ∃ r : ℝ, Host.divf N (broadcastInDim SW ![0, 1] hb2 (broadcastInDim SI1 ![0] hb1 D)) i = (r : EReal) := by
  obtain ⟨e, he⟩ := hN i
  obtain ⟨j, hj⟩ : ∃ j, broadcastInDim SW ![0, 1] hb2 (broadcastInDim SI1 ![0] hb1 D) i = D j := ⟨_, rfl⟩
  obtain ⟨s, hs0, hs⟩ := hD j
  refine ⟨e * (1 / s), ?_⟩
  rw [hostDivf_apply, he, hj, hs, Ideal.div_coe (ne_of_gt hs0), ← EReal.coe_mul]

end Softmax

/-- The softmax of finite rows is finite: every entry a real number. -/
theorem softmaxT_real (hr : SW.ReducesTo [1] SI) (h0 : 0 < S0.numel)
    (hb0 : S0.BroadcastsInDim SI (![] : Fin 0 → Fin SI.rank))
    (hb1 : SI.BroadcastsInDim SI1 (![0] : Fin 1 → Fin SI1.rank))
    (hb2 : SI1.BroadcastsInDim SW (![0, 1] : Fin 2 → Fin SW.rank))
    (x : FVec Ideal SW .f32) (hx : ∀ i, ∃ r : ℝ, x i = (r : EReal)) (i : SW.Idx) :
    ∃ r : ℝ, softmaxT (F := Ideal) hr h0 hb0 hb1 hb2 x i = (r : EReal) := by
  have hE := Softmax.expSub_pos hb1 hb2 x hx _ (Softmax.rowMax_real hr h0 hb0 x hx)
  exact Softmax.divBcast_real hb1 hb2 _ (fun i => (hE i).imp fun e he => he.2) _ (Softmax.rowSum_pos hr h0 _ hE) i

end Cert.Spec

end
-- ==== Proof.PreDecode.lean ====
import proofs.«429068_j81123342287625_2_alg».proof.Proof.Spec
import proofs.«429068_j81123342287625_2_alg».proof.Proof.Gen.Pre_finite_inputs
import Idealize.ShloMosaic.Lib.ReduceAll
import Idealize.ShloMosaic.Lib.StableHlo.Predicate

noncomputable section

namespace Cert.Pre_finite_inputs.Hand

open Idealize.ShloMosaic Idealize.ShloMosaic.TcCoe Idealize.SL.Sem Idealize.ShloMosaic.ValueIdx
open Cert.Pre_finite_inputs

/-- The shape of rank 0 has one index. -/
instance : Subsingleton S_.Idx := ⟨fun a b => funext fun d => d.elim0⟩

/-- An extended real whose absolute value `max x (-x)` lies below `+∞` is a real number: `+∞` and `-∞` both have
    absolute value `+∞`. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- The pattern `0x7F800000` (sign 0, exponent all ones, fraction 0) denotes `+∞`. -/
theorem ofBits_inf : Ideal.ofBits .f32 0x7F800000#32 = (⊤ : EReal) := by
  simp [Ideal.ofBits, Ideal.ieee]

/-- One element of the array `|x| < +∞` being 1 says that element of `x` is a real number: the right side reads `+∞`
    at every index, the left side `max (x i) (-(x i))`, and the comparison is the order's `<`. -/
theorem finite_elt {s : Shape} (hb : S_.BroadcastsInDim s (![] : Fin 0 → Fin s.rank)) (x : FVec Ideal s .f32) (i : s.Idx)
    (h : cmpf .olt (Host.absf x) (broadcastInDim s ![] hb (constant (F := Ideal) S_ .f32 0x7F800000#32)) i = 1#1) :
    ∃ r : ℝ, x i = (r : EReal) := by
  have hc : broadcastInDim s ![] hb (constant (F := Ideal) S_ .f32 0x7F800000#32) i = (⊤ : EReal) :=
    (StableHlo.Predicate.bcast_scalar hb (by decide) _ i).trans ofBits_inf
  have h' : Ideal.cmp .olt (max (x i) (-(x i))) (⊤ : EReal) = 1#1 := by rw [← hc]; exact h
  simp only [Ideal.cmp, StableHlo.Predicate.ofBool_eq_one_iff, decide_eq_true_eq] at h'
  exact real_of_abs_lt_top _ h'

/-- One element of `x ≥ -4096` (a signed comparison against the word `2³² - 4096`, which reads `-4096`) being 1 says
    that element, read signed, is at least `-4096`. -/
theorem ge_elt (hb : S_.BroadcastsInDim S8192 (![] : Fin 0 → Fin S8192.rank)) (x : IVec S8192 32) (j : S8192.Idx)
    (h : cmpi .sge x (broadcastInDim S8192 ![] hb (constantI S_ 32 4294963200#32)) j = 1#1) :
    (-4096 : Int) ≤ (x j).toInt := by
  have hc : broadcastInDim S8192 ![] hb (constantI S_ 32 4294963200#32) j = 4294963200#32 :=
    StableHlo.Predicate.bcast_scalar hb (by decide) _ j
  have h' : IntOp.cmpi .sge (x j) (4294963200#32) = 1#1 := by rw [← hc]; exact h
  simp only [IntOp.cmpi, StableHlo.Predicate.ofBool_eq_one_iff, BitVec.sle_iff_toInt_le] at h'
  have hw : (4294963200#32 : BitVec 32).toInt = -4096 := by decide
  omega

/-- One element of `x < 4096` (a signed comparison against the word `4096`) being 1 says that element, read signed, is
    below `4096`. -/
theorem lt_elt (hb : S_.BroadcastsInDim S8192 (![] : Fin 0 → Fin S8192.rank)) (x : IVec S8192 32) (j : S8192.Idx)
    (h : cmpi .slt x (broadcastInDim S8192 ![] hb (constantI S_ 32 4096#32)) j = 1#1) :
    (x j).toInt < 4096 := by
  have hc : broadcastInDim S8192 ![] hb (constantI S_ 32 4096#32) j = 4096#32 :=
    StableHlo.Predicate.bcast_scalar hb (by decide) _ j
  have h' : IntOp.cmpi .slt (x j) (4096#32) = 1#1 := by rw [← hc]; exact h
  simp only [IntOp.cmpi, StableHlo.Predicate.ofBool_eq_one_iff, BitVec.slt_iff_toInt_lt] at h'
  have hw : (4096#32 : BitVec 32).toInt = 4096 := by decide
  omega

/-- What the precondition says of the four arguments: both float arrays hold real numbers, both index arrays hold
    indices numpy accepts for an axis of extent 4096. The predicate is a conjunction, nested to the left, of six
    reductions by `and` over all axes; each being 1 gives its element fact at every index. -/
theorem decode (x0 : FVec Ideal S4096x4096 .f32) (x1 : FVec Ideal S8192x16 .f32) (x2 x3 : IVec S8192 32)
    (h : Cert.Pre_finite_inputs.fn (F := Ideal) x0 x1 x2 x3 = fun _ => 1#1) :
    (∀ i, ∃ r : ℝ, x0 i = (r : EReal)) ∧ (∀ i, ∃ r : ℝ, x1 i = (r : EReal)) ∧ Cert.Spec.InRange x2 ∧ Cert.Spec.InRange x3 := by
  have h0 := congrFun h ValueIdx.ix0
  dsimp only [fn, fn_part1] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨fun i => ?_, fun i => ?_, fun j => ⟨?_, ?_⟩, fun j => ⟨?_, ?_⟩⟩
  · exact finite_elt _ x0 i (Host.reduce_andi_all _ _ _ _ ix0 h1 i)
  · exact finite_elt _ x1 i (Host.reduce_andi_all _ _ _ _ ix0 h2 i)
  · exact ge_elt _ x2 j (Host.reduce_andi_all _ _ _ _ ix0 h3 j)
  · exact lt_elt _ x2 j (Host.reduce_andi_all _ _ _ _ ix0 h4 j)
  · exact ge_elt _ x3 j (Host.reduce_andi_all _ _ _ _ ix0 h5 j)
  · exact lt_elt _ x3 j (Host.reduce_andi_all _ _ _ _ ix0 h6 j)

end Cert.Pre_finite_inputs.Hand

end
-- ==== Proof.KernelIdealTake.lean ====
import proofs.«429068_j81123342287625_2_alg».proof.Proof.KernelIdealFrame
import proofs.«429068_j81123342287625_2_alg».proof.Proof.Spec
import Idealize.ShloMosaic.PureOps.Reduce
import Idealize.ShloMosaic.Lib.ValueIdx

noncomputable section

namespace Cert.KernelIdeal.HandHost

open Idealize.ShloMosaic Idealize.ShloMosaic.TcCoe Idealize.SL.Sem Idealize.ShloMosaic.ValueIdx
open Cert.KernelIdeal Cert.KernelIdeal.Gen Cert.KernelIdeal.Hand

variable (m : (ℓ : Loc nD τ sig) → Buf (Elt Ideal) ℓ) (ρ : Dev nD → PrngReg)

/-! ## Words: the wrapped index is in range -/

/-- A signed 32-bit word between 0 and 4095 passes both range tests. -/
theorem range_bits (w : BitVec 32) (h0 : 0 ≤ w.toInt) (h1 : w.toInt ≤ 4095) :
    IntOp.andi (IntOp.cmpi .sge w 0#32) (IntOp.cmpi .sle w 4095#32) = 1#1 := by
  have e0 : (0#32 : BitVec 32).toInt = 0 := by decide
  have e1 : (4095#32 : BitVec 32).toInt = 4095 := by decide
  have a : (0#32 : BitVec 32).sle w = true := by
    simp only [BitVec.sle, e0, decide_eq_true_eq]; exact h0
  have b : w.sle 4095#32 = true := by
    simp only [BitVec.sle, e1, decide_eq_true_eq]; exact h1
  simp only [IntOp.cmpi, a, b]
  decide

/-- numpy's wrap of an index between -4096 and 4095 lands between 0 and 4095. -/
theorem wrap_range (i : BitVec 32) (h0 : (-4096 : Int) ≤ i.toInt) (h1 : i.toInt < 4096) :
    0 ≤ (Scalar.select (IntOp.cmpi .slt i 0#32) (IntOp.addi i 4096#32) i).toInt
      ∧ (Scalar.select (IntOp.cmpi .slt i 0#32) (IntOp.addi i 4096#32) i).toInt ≤ 4095 := by
  have e0 : (0#32 : BitVec 32).toInt = 0 := by decide
  have e1 : (4096#32 : BitVec 32).toInt = 4096 := by decide
  by_cases hneg : i.toInt < 0
  · have c : IntOp.cmpi .slt i 0#32 = 1#1 := by
      simp only [IntOp.cmpi, BitVec.slt, e0, decide_eq_true hneg]; decide
    rw [c, select_one]
    have hs : (IntOp.addi i 4096#32).toInt = i.toInt + 4096 := by
      unfold IntOp.addi
      rw [BitVec.toInt_add, e1]
      exact Int.bmod_eq_of_le_mul_two (by omega) (by omega)
    rw [hs]; omega
  · have c : IntOp.cmpi .slt i 0#32 = 0#1 := by
      simp only [IntOp.cmpi, BitVec.slt, e0, decide_eq_false hneg]; decide
    rw [c, select_zero]; omega

/-! ## Arrays -/

/-- A fold of bitwise "and" from 1 over ones is 1. -/
theorem fold_andi_ones {ι : Type} (S : Finset ι) (f : ι → BitVec 1) (hf : ∀ i, f i = 1#1) :
    S.fold IntOp.andi 1#1 f = 1#1 := by
  induction S using Finset.cons_induction with
  | empty => rfl
  | cons a S ha ih => rw [Finset.fold_cons, ih, hf]; decide

/-- An "and"-reduction from 1 of an all-ones mask is all ones, over any axes. -/
theorem reduce_andi_ones {s t u : Shape} {axes : List (Fin s.rank)} (x : IVec s 1) (h : s.ReducesTo axes t)
    (hu : 0 < u.numel) (hx : ∀ i, x i = 1#1) (j : t.Idx) :
    Host.reduce IntOp.andi x (constantI u 1 1#1) h hu j = 1#1 := by
  rw [Host.reduce_eq_fold]
  exact fold_andi_ones _ _ hx

/-- A broadcast of an all-ones mask is all ones. -/
theorem bcast_ones {s t : Shape} (dims : Fin s.rank → Fin t.rank) (h : s.BroadcastsInDim t dims) (x : IVec s 1)
    (hx : ∀ i, x i = 1#1) (j : t.Idx) : broadcastInDim t dims h x j = 1#1 := by
  unfold broadcastInDim; exact hx _

/-- A select on an all-ones mask is its first branch. -/
theorem select_ones {s : Shape} {α : Type} (c : IVec s 1) (a b : s.Idx → α) (hc : ∀ i, c i = 1#1) : select c a b = a := by
  funext i; unfold select; rw [hc i, select_one]

/-- Every wrapped index lies between 0 and 4095. -/
theorem wrapIdx_range (hb0 : Cert.Spec.S0.BroadcastsInDim Cert.Spec.SI (![] : Fin 0 → Fin Cert.Spec.SI.rank))
    (idx : IVec Cert.Spec.SI 32) (h : Cert.Spec.InRange idx) (r : Cert.Spec.SI.Idx) :
    0 ≤ (Cert.Spec.wrapIdx hb0 idx r).toInt ∧ (Cert.Spec.wrapIdx hb0 idx r).toInt ≤ 4095 := by
  unfold Cert.Spec.wrapIdx
  simp only [select, cmpi, addi, broadcastInDim, constantI]
  exact wrap_range (idx r) (h r).1 (h r).2

/-- The gather under its range mask: with every index in range the mask is all ones and the masked select is the
    gather of the columns at the wrapped indices. -/
theorem take_masked {α : Type} (d : GatherDims S4096x4096 S8192x1 S4096x8192) (x : S4096x4096.Idx → α) (idx : IVec S8192 32)
    (h : Cert.Spec.InRange idx) (fill : S4096x8192.Idx → α) :
    select (broadcastInDim S4096x8192 ![1] bcast_S8192_S4096x8192_1
        (Host.reduce IntOp.andi
          (andi (cmpi .sge (broadcastInDim S8192x1 ![0] bcast_S8192_S8192x1_0 (Cert.Spec.wrapIdx bcast_S_S8192 idx))
                  (broadcastInDim S8192x1 ![] bcast_S_S8192x1 (constantI S_ 32 0#32)))
                (cmpi .sle (broadcastInDim S8192x1 ![0] bcast_S8192_S8192x1_0 (Cert.Spec.wrapIdx bcast_S_S8192 idx))
                  (broadcastInDim S8192x1 ![0, 1] bcast_S1x1_S8192x1_0_1 (broadcastInDim S1x1 ![1] bcast_S1_S1x1_1 (constantI S1 32 4095#32)))))
          (constantI S_ 1 1#1) reducesTo_S8192x1_S8192_d1 h_S_))
      (Host.gather d x (broadcastInDim S8192x1 ![0] bcast_S8192_S8192x1_0 (Cert.Spec.wrapIdx bcast_S_S8192 idx)))
      fill
    = Cert.Spec.takeT d bcast_S_S8192 bcast_S8192_S8192x1_0 x idx := by
  unfold Cert.Spec.takeT
  refine select_ones _ _ _ fun j => bcast_ones _ _ _ (fun k => reduce_andi_ones _ _ _ (fun i => ?_) k) j
  simp only [andi, cmpi, broadcastInDim, constantI]
  exact range_bits _ (wrapIdx_range _ idx h _).1 (wrapIdx_range _ idx h _).2

/-! ## The two stretches -/

set_option maxHeartbeats 2000000 in
/-- The first stretch's result from any contents: the gather of the first argument's columns at the third argument's
    wrapped indices, the range mask being all ones. -/
theorem first0 (X : Valuation τ sig (Elt Ideal)) (h : Cert.Spec.InRange (X (Proc.devRef .tc main_arg2))) :
    StableHlo.after (hostOps0 (F := Ideal)) X (Proc.devRef .tc main_v0)
      = Cert.Spec.takeT gather_S4096x4096_S8192x1_S4096x8192_0_1_n_n_1_1_40961 bcast_S_S8192 bcast_S8192_S8192x1_0
          (X (Proc.devRef .tc main_arg0)) (X (Proc.devRef .tc main_arg2)) := by
  simp only [hostOps0]
  after_results_simp
  simp only [StableHlo.TRef.ofBuf, StableHlo.TRef.toBuf, cast_eq]
  exact take_masked _ _ _ h _

set_option maxHeartbeats 2000000 in
/-- The second stretch's result from any contents: the same at the fourth argument's indices. -/
theorem second0 (X : Valuation τ sig (Elt Ideal)) (h : Cert.Spec.InRange (X (Proc.devRef .tc main_arg3))) :
    StableHlo.after (hostOps0_1 (F := Ideal)) X (Proc.devRef .tc main_v1)
      = Cert.Spec.takeT gather_S4096x4096_S8192x1_S4096x8192_0_1_n_n_1_1_40961 bcast_S_S8192 bcast_S8192_S8192x1_0
          (X (Proc.devRef .tc main_arg0)) (X (Proc.devRef .tc main_arg3)) := by
  simp only [hostOps0_1]
  after_results_simp
  simp only [StableHlo.TRef.ofBuf, StableHlo.TRef.toBuf, cast_eq]
  exact take_masked _ _ _ h _

/-- The first stretch writes neither the first nor the fourth argument. -/
theorem keep0 (X : Valuation τ sig (Elt Ideal)) (r : Ref sig .tc) (hr : r = main_arg0 ∨ r = main_arg3) :
    StableHlo.after (hostOps0 (F := Ideal)) X (Proc.devRef .tc r) = X (Proc.devRef .tc r) :=
  StableHlo.after_of_forall_not_mem (b := Proc.devRef .tc r) _ _ (List.forall_iff_forall_mem.mp (by
    simp only [hostOps0, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    rcases hr with rfl | rfl
    all_goals (repeat' apply And.intro)
    all_goals exact StableHlo.devRef_ne_of_ne (by decide)))

/-- The second stretch does not write the first gathered array. -/
theorem keep1 (X : Valuation τ sig (Elt Ideal)) :
    StableHlo.after (hostOps0_1 (F := Ideal)) X (Proc.devRef .tc main_v0) = X (Proc.devRef .tc main_v0) :=
  StableHlo.after_of_forall_not_mem (b := Proc.devRef .tc main_v0) _ _ (List.forall_iff_forall_mem.mp (by
    simp only [hostOps0_1, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    repeat' apply And.intro
    all_goals exact StableHlo.devRef_ne_of_ne (by decide)))

set_option maxHeartbeats 4000000 in
/-- The third stretch writes neither gathered array. -/
theorem keep2 (X : Valuation τ sig (Elt Ideal)) (r : Ref sig .tc) (hr : r = main_v0 ∨ r = main_v1) :
    StableHlo.after (hostOps0_2 (F := Ideal)) X (Proc.devRef .tc r) = X (Proc.devRef .tc r) :=
  StableHlo.after_of_forall_not_mem (b := Proc.devRef .tc r) _ _ (List.forall_iff_forall_mem.mp (by
    simp only [hostOps0_2, List.Forall, StableHlo.nullary_writes, StableHlo.unary_writes, StableHlo.binary_writes,
      StableHlo.ternary_writes, StableHlo.quaternary_writes, StableHlo.reshape_writes, StableHlo.binaryIndexed_writes,
      StableHlo.nary_writes, Finset.mem_singleton]
    rcases hr with rfl | rfl
    all_goals (repeat' apply And.intro)
    all_goals exact StableHlo.devRef_ne_of_ne (by decide)))

/-! ## What the region finds -/

/-- With every index in numpy's range the first gather's range mask is all ones: the region finds the gathered columns
    themselves, none replaced by the fill value. -/
theorem V_v0 (c : Dev nD) (h : Cert.Spec.InRange (m ((c.tc : Thread nD τ).loc main_arg2))) :
    V m c main_v0 = Cert.Spec.takeT Cert.KernelIdeal.gather_S4096x4096_S8192x1_S4096x8192_0_1_n_n_1_1_40961 Cert.KernelIdeal.Facts₀.bcast_S_S8192 Cert.KernelIdeal.Facts₀.bcast_S8192_S8192x1_0 (m ((c.tc : Thread nD τ).loc main_arg0)) (m ((c.tc : Thread nD τ).loc main_arg2)) := by
  dsimp only [V]
  simp only [List.flatten_cons, List.flatten_nil, List.append_nil]
  rw [StableHlo.after_append, StableHlo.after_append, keep2 _ main_v0 (.inl rfl), keep1]
  exact first0 _ h

/-- The same for the second gather. -/
theorem V_v1 (c : Dev nD) (h : Cert.Spec.InRange (m ((c.tc : Thread nD τ).loc main_arg3))) :
    V m c main_v1 = Cert.Spec.takeT Cert.KernelIdeal.gather_S4096x4096_S8192x1_S4096x8192_0_1_n_n_1_1_40961 Cert.KernelIdeal.Facts₀.bcast_S_S8192 Cert.KernelIdeal.Facts₀.bcast_S8192_S8192x1_0 (m ((c.tc : Thread nD τ).loc main_arg0)) (m ((c.tc : Thread nD τ).loc main_arg3)) := by
  dsimp only [V]
  simp only [List.flatten_cons, List.flatten_nil, List.append_nil]
  rw [StableHlo.after_append, StableHlo.after_append, keep2 _ main_v1 (.inr rfl)]
  have e0 := keep0 (fun b => m (c, b)) main_arg0 (.inl rfl)
  have e3 := keep0 (fun b => m (c, b)) main_arg3 (.inr rfl)
  rw [second0 _ (by rw [e3]; exact h), e0, e3]

end Cert.KernelIdeal.HandHost

end
-- ==== Proof.KernelIdealCoef.lean ====
/-
  The stacked coefficient array of `KernelIdeal`, read at an entry.

  The third stretch of @main's host operations computes, from the weights `W₀ : [8192, 16]` alone: the row softmax
  `W` of `W₀`; the sixteen columns of `W`, each cut out as `[8192, 1]` and reshaped to `[8192]`; four vectors
  `c₀ … c₃ : [8192]`, each a fixed signed sum of columns (two of the terms of `c₃` doubled, the factor the scalar
  constant two broadcast); and the `[4, 8192]` array whose rows are `c₀ … c₃`. The stretch is read in four stages,
  each over the contents the stage before leaves, so that no step carries the whole term: after the first stage one
  array is the softmax of the weights; after the second, column vector `i` at `j` is that array at `(j, i)`; after
  the third, `cₖ` at `j` is coefficient `k` of the sixteen column entries at `j`, in the specification's own
  association; after the fourth, the stack at `(k, j)` is `cₖ` at `j`. The first two stretches write none of the
  weights, so the softmax is that of the weights as launched.
-/
import proofs.«429068_j81123342287625_2_alg».proof.Proof.KernelIdealFrame
import proofs.«429068_j81123342287625_2_alg».proof.Proof.Spec
import proofs.«429068_j81123342287625_2_alg».proof.Proof.SpecMath
import Idealize.ShloMosaic.Lib.ValueIdx
import Idealize.ShloMosaic.Lib.Pipeline.Value

noncomputable section

namespace Cert.KernelIdeal.HandHost

open Idealize.ShloMosaic Idealize.ShloMosaic.TcCoe Idealize.SL.Sem Idealize.ShloMosaic.ValueIdx
open Cert.KernelIdeal Cert.KernelIdeal.Gen Cert.KernelIdeal.Hand

namespace Coef

variable {F : FTy → Type} [FloatOps F]

/-! ## The third stretch of host operations, cut into four stages -/

/-- A line of operations run from `X` is its first `n` run from `X`, then the rest run from what those leave. -/
theorem after_split (n : Nat) (ops : List (HloOp τ sig (Elt F))) (X : Valuation τ sig (Elt F)) :
    StableHlo.after ops X = StableHlo.after (ops.drop n) (StableHlo.after (ops.take n) X) := by
  rw [← StableHlo.after_append, List.take_append_drop]

/-- The softmax of the weights (14 operations), its sixteen columns (32), the four coefficient vectors (36), the stack (5). -/
def opsA : List (HloOp τ sig (Elt F)) := (hostOps0_2 (F := F)).take 14
def opsB : List (HloOp τ sig (Elt F)) := ((hostOps0_2 (F := F)).drop 14).take 32
def opsC : List (HloOp τ sig (Elt F)) := (((hostOps0_2 (F := F)).drop 14).drop 32).take 36
def opsD : List (HloOp τ sig (Elt F)) := (((hostOps0_2 (F := F)).drop 14).drop 32).drop 36

/-- The stretch is its four stages in a row. -/
theorem after_stages (X : Valuation τ sig (Elt F)) :
    StableHlo.after (hostOps0_2 (F := F)) X
      = StableHlo.after opsD (StableHlo.after opsC (StableHlo.after opsB (StableHlo.after opsA X))) := by
  rw [after_split 14 (hostOps0_2 (F := F)), after_split 32 ((hostOps0_2 (F := F)).drop 14),
    after_split 36 (((hostOps0_2 (F := F)).drop 14).drop 32)]
  rfl

/-! ## Stage one: the softmax of the weights -/

/-- After the first stage the softmax array is the specification's row softmax of the weights the stage found. -/
theorem stageA (X : Valuation τ sig (Elt F)) :
    StableHlo.after (opsA (F := F)) X (Proc.devRef .tc main_v12)
      = Cert.Spec.softmaxT (F := F) Cert.KernelIdeal.Facts₀.reducesTo_S8192x16_S8192_d1 Cert.KernelIdeal.Facts₀.h_S_ Cert.KernelIdeal.Facts₀.bcast_S_S8192 Cert.KernelIdeal.Facts₀.bcast_S8192_S8192x1_0 Cert.KernelIdeal.Facts₀.bcast_S8192x1_S8192x16_0_1 (X (Proc.devRef .tc main_arg1)) := by
  simp only [opsA, hostOps0_2, List.take_succ_cons, List.take_zero]
  after_results_simp
  rfl

/-! ## Stage two: the sixteen columns -/

/-- Column `i` of a `[8192, 16]` array, cut out as `[8192, 1]` and reshaped to `[8192]`, read at `j`. -/
theorem col_apply {α : Type} (W : S8192x16.Idx → α) (i : Nat) (hi : i < 16) (h : S8192x16.Slices ![0, i] S8192x1)
    (h' : S8192x1.ShapeCasts S8192) (j : Fin 8192) :
    shapeCast S8192 (extractStridedSlice S8192x1 ![0, i] W h) h' (ix1 j) = W (ix2 j ⟨i, hi⟩) :=
  (shapeCast_apply _ h' (ix1 j) (ix2 j (0 : Fin 1)) (by
      rw [Shape.rowMajor_val_two, Shape.rowMajor_val_one]
      show j.val * 1 + 0 = j.val
      omega)).trans
    (extractStridedSlice_apply _ W h (ix2 j (0 : Fin 1)) (ix2 j ⟨i, hi⟩) (fun ax => by
      match ax with
      | ⟨0, _⟩ => exact (Nat.zero_add _).symm
      | ⟨1, _⟩ => exact (Nat.add_zero _).symm))

/-- The sixteen column vectors at `j`. -/
def wOf (Y : Valuation τ sig (Elt F)) (j : Fin 8192) : Fin 16 → Elt F .f32 :=
  ![Y (Proc.devRef .tc main_v14) (ix1 j), Y (Proc.devRef .tc main_v16) (ix1 j), Y (Proc.devRef .tc main_v18) (ix1 j),
    Y (Proc.devRef .tc main_v20) (ix1 j), Y (Proc.devRef .tc main_v22) (ix1 j), Y (Proc.devRef .tc main_v24) (ix1 j),
    Y (Proc.devRef .tc main_v26) (ix1 j), Y (Proc.devRef .tc main_v28) (ix1 j), Y (Proc.devRef .tc main_v30) (ix1 j),
    Y (Proc.devRef .tc main_v32) (ix1 j), Y (Proc.devRef .tc main_v34) (ix1 j), Y (Proc.devRef .tc main_v36) (ix1 j),
    Y (Proc.devRef .tc main_v38) (ix1 j), Y (Proc.devRef .tc main_v40) (ix1 j), Y (Proc.devRef .tc main_v42) (ix1 j),
    Y (Proc.devRef .tc main_v44) (ix1 j)]

local macro "col_read" : tactic =>
  `(tactic| (simp only [opsB, hostOps0_2, List.drop_succ_cons, List.drop_zero, List.take_succ_cons, List.take_zero]
             after_results_simp
             exact col_apply _ _ _ _ _ _))

/-- After the second stage column vector `i` at `j` is the array the stage found, at `(j, i)`. -/
theorem stageB (Y : Valuation τ sig (Elt F)) (j : Fin 8192) (i : Fin 16) :
    wOf (StableHlo.after (opsB (F := F)) Y) j i = Y (Proc.devRef .tc main_v12) (ix2 j i) := by
  match i with
  | ⟨0, _⟩ => show StableHlo.after (opsB (F := F)) Y (Proc.devRef .tc main_v14) (ix1 j) = _; col_read
  | ⟨1, _⟩ => show StableHlo.after (opsB (F := F)) Y (Proc.devRef .tc main_v16) (ix1 j) = _; col_read
  | ⟨2, _⟩ => show StableHlo.after (opsB (F := F)) Y (Proc.devRef .tc main_v18) (ix1 j) = _; col_read
  | ⟨3, _⟩ => show StableHlo.after (opsB (F := F)) Y (Proc.devRef .tc main_v20) (ix1 j) = _; col_read
  | ⟨4, _⟩ => show StableHlo.after (opsB (F := F)) Y (Proc.devRef .tc main_v22) (ix1 j) = _; col_read
  | ⟨5, _⟩ => show StableHlo.after (opsB (F := F)) Y (Proc.devRef .tc main_v24) (ix1 j) = _; col_read
  | ⟨6, _⟩ => show StableHlo.after (opsB (F := F)) Y (Proc.devRef .tc main_v26) (ix1 j) = _; col_read
  | ⟨7, _⟩ => show StableHlo.after (opsB (F := F)) Y (Proc.devRef .tc main_v28) (ix1 j) = _; col_read
  | ⟨8, _⟩ => show StableHlo.after (opsB (F := F)) Y (Proc.devRef .tc main_v30) (ix1 j) = _; col_read
  | ⟨9, _⟩ => show StableHlo.after (opsB (F := F)) Y (Proc.devRef .tc main_v32) (ix1 j) = _; col_read
  | ⟨10, _⟩ => show StableHlo.after (opsB (F := F)) Y (Proc.devRef .tc main_v34) (ix1 j) = _; col_read
  | ⟨11, _⟩ => show StableHlo.after (opsB (F := F)) Y (Proc.devRef .tc main_v36) (ix1 j) = _; col_read
  | ⟨12, _⟩ => show StableHlo.after (opsB (F := F)) Y (Proc.devRef .tc main_v38) (ix1 j) = _; col_read
  | ⟨13, _⟩ => show StableHlo.after (opsB (F := F)) Y (Proc.devRef .tc main_v40) (ix1 j) = _; col_read
  | ⟨14, _⟩ => show StableHlo.after (opsB (F := F)) Y (Proc.devRef .tc main_v42) (ix1 j) = _; col_read
  | ⟨15, _⟩ => show StableHlo.after (opsB (F := F)) Y (Proc.devRef .tc main_v44) (ix1 j) = _; col_read
  | ⟨n + 16, h⟩ => exact absurd h (by omega)

/-! ## Stage three: the four coefficient vectors -/

set_option maxHeartbeats 4000000 in
/-- After the third stage the first coefficient vector at `j` is the coefficient of `1` of the column entries at `j`. -/
theorem stageC0 (Y : Valuation τ sig (Elt Ideal)) (j : Fin 8192) :
    StableHlo.after (opsC (F := Ideal)) Y (Proc.devRef .tc main_v51) (ix1 j) = Cert.Spec.coef0 (wOf Y j) := by
  simp only [opsC, hostOps0_2, List.drop_succ_cons, List.drop_zero, List.take_succ_cons, List.take_zero]
  after_results_simp
  rfl

set_option maxHeartbeats 4000000 in
/-- The second: the coefficient of `a`. -/
theorem stageC1 (Y : Valuation τ sig (Elt Ideal)) (j : Fin 8192) :
    StableHlo.after (opsC (F := Ideal)) Y (Proc.devRef .tc main_v58) (ix1 j) = Cert.Spec.coef1 (wOf Y j) := by
  simp only [opsC, hostOps0_2, List.drop_succ_cons, List.drop_zero, List.take_succ_cons, List.take_zero]
  after_results_simp
  rfl

set_option maxHeartbeats 4000000 in
/-- The third: the coefficient of `b`. -/
theorem stageC2 (Y : Valuation τ sig (Elt Ideal)) (j : Fin 8192) :
    StableHlo.after (opsC (F := Ideal)) Y (Proc.devRef .tc main_v65) (ix1 j) = Cert.Spec.coef2 (wOf Y j) := by
  simp only [opsC, hostOps0_2, List.drop_succ_cons, List.drop_zero, List.take_succ_cons, List.take_zero]
  after_results_simp
  rfl

/-- The scalar constant two, broadcast to a vector, reads `2` everywhere. -/
theorem two_apply (h : S_.BroadcastsInDim S8192 (![] : Fin 0 → Fin S8192.rank)) (j : S8192.Idx) :
    broadcastInDim S8192 ![] h (constant (F := Ideal) S_ .f32 0x40000000#32) j = (2 : EReal) :=
  Cert.Spec.ofBits_two

set_option maxHeartbeats 4000000 in
/-- The fourth: the coefficient of `a·b`, its two doubled terms by the broadcast constant two. -/
theorem stageC3 (Y : Valuation τ sig (Elt Ideal)) (j : Fin 8192) :
    StableHlo.after (opsC (F := Ideal)) Y (Proc.devRef .tc main_v78) (ix1 j) = Cert.Spec.coef3 (wOf Y j) := by
  simp only [opsC, hostOps0_2, List.drop_succ_cons, List.drop_zero, List.take_succ_cons, List.take_zero]
  after_results_simp
  simp only [addf_apply, subf_apply, mulf_apply]
  erw [two_apply]
  rfl

/-! ## Stage four: the stack -/

/-- A vector broadcast to one row reads, at `(u, j)`, the vector at `j`. -/
theorem row_apply {α : Type} (v : S8192.Idx → α) (h : S8192.BroadcastsInDim S1x8192 (![1] : Fin 1 → Fin S1x8192.rank)) (u : Fin 1) (j : Fin 8192) :
    broadcastInDim S1x8192 ![1] h v (ix2 u j) = v (ix1 j) :=
  broadcastInDim_apply _ h v _ _ (fun a => by match a with | ⟨0, _⟩ => rfl)

/-- Four `[1, 8192]` rows stacked along axis 0 read, at `(n, j)`, row `n` at `(0, j)`. -/
theorem stack4_apply {α : Type} (p0 p1 p2 p3 : S1x8192.Idx → α)
    (h : Shape.Concatenates [S1x8192, S1x8192, S1x8192, S1x8192] S4x8192 0) (j : Fin 8192) :
    concatenate S4x8192 0 [⟨S1x8192, p0⟩, ⟨S1x8192, p1⟩, ⟨S1x8192, p2⟩, ⟨S1x8192, p3⟩] h (ix2 (0 : Fin 4) j) = p0 (ix2 (0 : Fin 1) j)
    ∧ concatenate S4x8192 0 [⟨S1x8192, p0⟩, ⟨S1x8192, p1⟩, ⟨S1x8192, p2⟩, ⟨S1x8192, p3⟩] h (ix2 (1 : Fin 4) j) = p1 (ix2 (0 : Fin 1) j)
    ∧ concatenate S4x8192 0 [⟨S1x8192, p0⟩, ⟨S1x8192, p1⟩, ⟨S1x8192, p2⟩, ⟨S1x8192, p3⟩] h (ix2 (2 : Fin 4) j) = p2 (ix2 (0 : Fin 1) j)
    ∧ concatenate S4x8192 0 [⟨S1x8192, p0⟩, ⟨S1x8192, p1⟩, ⟨S1x8192, p2⟩, ⟨S1x8192, p3⟩] h (ix2 (3 : Fin 4) j) = p3 (ix2 (0 : Fin 1) j) := by
  have hi : ∀ (n : Fin 4) (b : Fin S1x8192.rank), b.cast (rfl : S1x8192.rank = S4x8192.rank) ≠ (0 : Fin S4x8192.rank) →
      ((ix2 (0 : Fin 1) j : S1x8192.Idx) b).val = ((ix2 n j : S4x8192.Idx) (b.cast rfl)).val := fun n b hb => by
    match b with
    | ⟨0, _⟩ => exact absurd rfl hb
    | ⟨1, _⟩ => rfl
  exact ⟨concatenate_apply_piece 0 [⟨S1x8192, p0⟩, ⟨S1x8192, p1⟩, ⟨S1x8192, p2⟩, ⟨S1x8192, p3⟩] h _ 0 (by simp) S1x8192 p0 rfl rfl 0 rfl (ix2 (0 : Fin 1) j) (hi 0) rfl,
    concatenate_apply_piece 0 [⟨S1x8192, p0⟩, ⟨S1x8192, p1⟩, ⟨S1x8192, p2⟩, ⟨S1x8192, p3⟩] h _ 1 (by simp) S1x8192 p1 rfl rfl 1 rfl (ix2 (0 : Fin 1) j) (hi 1) rfl,
    concatenate_apply_piece 0 [⟨S1x8192, p0⟩, ⟨S1x8192, p1⟩, ⟨S1x8192, p2⟩, ⟨S1x8192, p3⟩] h _ 2 (by simp) S1x8192 p2 rfl rfl 2 rfl (ix2 (0 : Fin 1) j) (hi 2) rfl,
    concatenate_apply_piece 0 [⟨S1x8192, p0⟩, ⟨S1x8192, p1⟩, ⟨S1x8192, p2⟩, ⟨S1x8192, p3⟩] h _ 3 (by simp) S1x8192 p3 rfl rfl 3 rfl (ix2 (0 : Fin 1) j) (hi 3) rfl⟩

local macro "row_read" : tactic =>
  `(tactic| (simp (disch := decide) only [StableHlo.unary_result', StableHlo.unary_result_ne']
             exact row_apply _ _ _ _))

/-- After the fourth stage the stack at `(k, j)` is coefficient vector `k`, as the stage found it, at `j`. -/
theorem stageD (Y : Valuation τ sig (Elt F)) (k : Fin 4) (j : Fin 8192) :
    StableHlo.after (opsD (F := F)) Y (Proc.devRef .tc main_v83) (ix2 k j)
      = ![Y (Proc.devRef .tc main_v51) (ix1 j), Y (Proc.devRef .tc main_v58) (ix1 j), Y (Proc.devRef .tc main_v65) (ix1 j), Y (Proc.devRef .tc main_v78) (ix1 j)] k := by
  simp only [opsD, hostOps0_2, List.drop_succ_cons, List.drop_zero, StableHlo.after_cons, StableHlo.after_nil]
  rw [StableHlo.nary_result]
  match k with
  | ⟨0, _⟩ =>
    refine Eq.trans (stack4_apply _ _ _ _ _ j).1 ?_
    show (StableHlo.unary main_v78 main_v82 _ _ _).result _ (Proc.devRef .tc main_v79) (ix2 (0 : Fin 1) j) = Y (Proc.devRef .tc main_v51) (ix1 j)
    row_read
  | ⟨1, _⟩ =>
    refine Eq.trans (stack4_apply _ _ _ _ _ j).2.1 ?_
    show (StableHlo.unary main_v78 main_v82 _ _ _).result _ (Proc.devRef .tc main_v80) (ix2 (0 : Fin 1) j) = Y (Proc.devRef .tc main_v58) (ix1 j)
    row_read
  | ⟨2, _⟩ =>
    refine Eq.trans (stack4_apply _ _ _ _ _ j).2.2.1 ?_
    show (StableHlo.unary main_v78 main_v82 _ _ _).result _ (Proc.devRef .tc main_v81) (ix2 (0 : Fin 1) j) = Y (Proc.devRef .tc main_v65) (ix1 j)
    row_read
  | ⟨3, _⟩ =>
    refine Eq.trans (stack4_apply _ _ _ _ _ j).2.2.2 ?_
    show (StableHlo.unary main_v78 main_v82 _ _ _).result _ (Proc.devRef .tc main_v82) (ix2 (0 : Fin 1) j) = Y (Proc.devRef .tc main_v78) (ix1 j)
    row_read

/-! ## The first two stretches leave the weights -/

/-- No operation of the first two stretches writes the weights. -/
theorem pre_arg1 (M : Valuation τ sig (Elt F)) :
    StableHlo.after (hostOps0_1 (F := F)) (StableHlo.after (hostOps0 (F := F)) M) (Proc.devRef .tc main_arg1)
      = M (Proc.devRef .tc main_arg1) := by
  rw [← StableHlo.after_append]
  exact StableHlo.after_of_forall_not_mem (b := Proc.devRef .tc main_arg1) _ _ (List.forall_iff_forall_mem.mp (by
    simp only [hostOps0, hostOps0_1, List.cons_append, List.nil_append, List.Forall, StableHlo.nullary_writes, StableHlo.unary_writes,
      StableHlo.binary_writes, StableHlo.ternary_writes, StableHlo.quaternary_writes, StableHlo.reshape_writes,
      StableHlo.binaryIndexed_writes, StableHlo.nary_writes, Finset.mem_singleton]
    repeat' apply And.intro
    all_goals exact StableHlo.devRef_ne_of_ne (by decide)))

end Coef

open Coef

variable (m : (ℓ : Loc nD τ sig) → Buf (Elt Ideal) ℓ) (ρ : Dev nD → PrngReg)

/-- Row `k`, column `j` of the stacked coefficient array: coefficient `k` of the softmax of row `j` of the weights. -/
theorem V_v83 (c : Dev nD) (k : Fin 4) (j : Fin 8192) :
    V m c main_v83 (ix2 k j)
      = Cert.Spec.coef k (fun i : Fin 16 => Cert.Spec.softmaxT (F := Ideal) Cert.KernelIdeal.Facts₀.reducesTo_S8192x16_S8192_d1 Cert.KernelIdeal.Facts₀.h_S_ Cert.KernelIdeal.Facts₀.bcast_S_S8192 Cert.KernelIdeal.Facts₀.bcast_S8192_S8192x1_0 Cert.KernelIdeal.Facts₀.bcast_S8192x1_S8192x16_0_1 (m ((c.tc : Thread nD τ).loc main_arg1)) (ix2 j i)) := by
  have hV : V m c main_v83
      = StableHlo.after (hostOps0_2 (F := Ideal)) (StableHlo.after hostOps0_1 (StableHlo.after hostOps0 (fun b => m (c, b))))
          (Proc.devRef .tc main_v83) := by
    show StableHlo.after (List.flatten [hostOps0, hostOps0_1, hostOps0_2]) (fun b => m (c, b)) (Proc.devRef .tc main_v83) = _
    rw [List.flatten_cons, List.flatten_cons, List.flatten_cons, List.flatten_nil, List.append_nil, StableHlo.after_append,
      StableHlo.after_append]
  rw [hV, after_stages]
  have hX1 : StableHlo.after hostOps0_1 (StableHlo.after hostOps0 (fun b => m (c, b))) (Proc.devRef .tc main_arg1)
      = m ((c.tc : Thread nD τ).loc main_arg1) := pre_arg1 _
  generalize StableHlo.after hostOps0_1 (StableHlo.after hostOps0 (fun b => m (c, b))) = X at hX1 ⊢
  have hw : wOf (StableHlo.after opsB (StableHlo.after opsA X)) j
      = fun i : Fin 16 => Cert.Spec.softmaxT (F := Ideal) Cert.KernelIdeal.Facts₀.reducesTo_S8192x16_S8192_d1 Cert.KernelIdeal.Facts₀.h_S_ Cert.KernelIdeal.Facts₀.bcast_S_S8192 Cert.KernelIdeal.Facts₀.bcast_S8192_S8192x1_0 Cert.KernelIdeal.Facts₀.bcast_S8192x1_S8192x16_0_1 (m ((c.tc : Thread nD τ).loc main_arg1)) (ix2 j i) := by
    funext i
    rw [stageB, stageA, hX1]
  rw [stageD, ← hw]
  match k with
  | ⟨0, _⟩ => exact stageC0 _ j
  | ⟨1, _⟩ => exact stageC1 _ j
  | ⟨2, _⟩ => exact stageC2 _ j
  | ⟨3, _⟩ => exact stageC3 _ j

end Cert.KernelIdeal.HandHost

end
-- ==== Proof.RefValue.lean ====
import proofs.«429068_j81123342287625_2_alg».proof.Proof.Spec
import proofs.«429068_j81123342287625_2_alg».proof.Proof.SpecMath
import proofs.«429068_j81123342287625_2_alg».proof.Proof.Gen.ReferenceIdeal.Read
import Idealize.ShloMosaic.Lib.ValueIdx

noncomputable section

namespace Cert.ReferenceIdeal.HandValue

open Idealize.ShloMosaic Idealize.ShloMosaic.TcCoe Idealize.SL.Sem Idealize.ShloMosaic.ValueIdx
open Cert.ReferenceIdeal Cert.ReferenceIdeal.Gen

/-! ## The three stages that are the specification's own terms -/

/-- The first gathered array is the columns of x at the first wrapped index vector. -/
theorem gatherA_eq (x0 : FVec Ideal S4096x4096 .f32) (x2 : IVec S8192 32) :
    Read.val_main_v6 (F := Ideal) x0 x2
      = Cert.Spec.takeT gather_S4096x4096_S8192x1_S4096x8192_0_1_n_n_1_1_40961 Facts₀.bcast_S_S8192 Facts₀.bcast_S8192_S8192x1_0 x0 x2 := rfl

/-- The second gathered array is the columns of x at the second wrapped index vector. -/
theorem gatherB_eq (x0 : FVec Ideal S4096x4096 .f32) (x3 : IVec S8192 32) :
    Read.val_main_v13 (F := Ideal) x0 x3
      = Cert.Spec.takeT gather_S4096x4096_S8192x1_S4096x8192_0_1_n_n_1_1_40961 Facts₀.bcast_S_S8192 Facts₀.bcast_S8192_S8192x1_0 x0 x3 := rfl

/-- The weights' stage is the row softmax. -/
theorem weights_eq (x1 : FVec Ideal S8192x16 .f32) :
    Read.val_main_v25 (F := Ideal) x1
      = Cert.Spec.softmaxT (F := Ideal) Facts₀.reducesTo_S8192x16_S8192_d1 Facts₀.h_S_ Facts₀.bcast_S_S8192 Facts₀.bcast_S8192_S8192x1_0 Facts₀.bcast_S8192x1_S8192x16_0_1 x1 := rfl

/-- Row j of the softmax of the weights, as a function of the gate's number. -/
def wt (x1 : FVec Ideal S8192x16 .f32) (j : Fin 8192) : Fin 16 → EReal := fun i =>
  Cert.Spec.softmaxT (F := Ideal) Facts₀.reducesTo_S8192x16_S8192_d1 Facts₀.h_S_ Facts₀.bcast_S_S8192 Facts₀.bcast_S8192_S8192x1_0 Facts₀.bcast_S8192x1_S8192x16_0_1 x1 (ix2 j i)

/-! ## The sixteen weight arrays: column k of the softmax, sliced, flattened and spread over the rows

Each is read back through its four layout steps to the softmax at row j, column k; the row coordinate passes
through a division by one and the column coordinate is k plus the zero of the unit axis. -/

/-- The first weight array at (r, j) is the softmax at (j, 0). -/
theorem wcol0 (x1 : FVec Ideal S8192x16 .f32) (r : Fin 4096) (j : Fin 8192) :
    Read.val_main_v61 (F := Ideal) x1 (ix2 r j) = wt x1 j 0 := by
  rw [Read.val_main_v61_apply, Read.val_main_v60_apply, Read.val_main_v59_apply, Read.val_main_v58_apply, weights_eq]
  unfold wt
  refine congrArg _ (funext fun a => Fin.ext ?_)
  match a with
  | ⟨0, _⟩ => exact Nat.div_one _
  | ⟨1, _⟩ => rfl

/-- The second weight array at (r, j) is the softmax at (j, 1). -/
theorem wcol1 (x1 : FVec Ideal S8192x16 .f32) (r : Fin 4096) (j : Fin 8192) :
    Read.val_main_v67 (F := Ideal) x1 (ix2 r j) = wt x1 j 1 := by
  rw [Read.val_main_v67_apply, Read.val_main_v66_apply, Read.val_main_v65_apply, Read.val_main_v64_apply, weights_eq]
  unfold wt
  refine congrArg _ (funext fun a => Fin.ext ?_)
  match a with
  | ⟨0, _⟩ => exact Nat.div_one _
  | ⟨1, _⟩ => rfl

/-- The third weight array at (r, j) is the softmax at (j, 2). -/
theorem wcol2 (x1 : FVec Ideal S8192x16 .f32) (r : Fin 4096) (j : Fin 8192) :
    Read.val_main_v73 (F := Ideal) x1 (ix2 r j) = wt x1 j 2 := by
  rw [Read.val_main_v73_apply, Read.val_main_v72_apply, Read.val_main_v71_apply, Read.val_main_v70_apply, weights_eq]
  unfold wt
  refine congrArg _ (funext fun a => Fin.ext ?_)
  match a with
  | ⟨0, _⟩ => exact Nat.div_one _
  | ⟨1, _⟩ => rfl

/-- The fourth weight array at (r, j) is the softmax at (j, 3). -/
theorem wcol3 (x1 : FVec Ideal S8192x16 .f32) (r : Fin 4096) (j : Fin 8192) :
    Read.val_main_v79 (F := Ideal) x1 (ix2 r j) = wt x1 j 3 := by
  rw [Read.val_main_v79_apply, Read.val_main_v78_apply, Read.val_main_v77_apply, Read.val_main_v76_apply, weights_eq]
  unfold wt
  refine congrArg _ (funext fun a => Fin.ext ?_)
  match a with
  | ⟨0, _⟩ => exact Nat.div_one _
  | ⟨1, _⟩ => rfl

/-- The fifth weight array at (r, j) is the softmax at (j, 4). -/
theorem wcol4 (x1 : FVec Ideal S8192x16 .f32) (r : Fin 4096) (j : Fin 8192) :
    Read.val_main_v85 (F := Ideal) x1 (ix2 r j) = wt x1 j 4 := by
  rw [Read.val_main_v85_apply, Read.val_main_v84_apply, Read.val_main_v83_apply, Read.val_main_v82_apply, weights_eq]
  unfold wt
  refine congrArg _ (funext fun a => Fin.ext ?_)
  match a with
  | ⟨0, _⟩ => exact Nat.div_one _
  | ⟨1, _⟩ => rfl

/-- The sixth weight array at (r, j) is the softmax at (j, 5). -/
theorem wcol5 (x1 : FVec Ideal S8192x16 .f32) (r : Fin 4096) (j : Fin 8192) :
    Read.val_main_v91 (F := Ideal) x1 (ix2 r j) = wt x1 j 5 := by
  rw [Read.val_main_v91_apply, Read.val_main_v90_apply, Read.val_main_v89_apply, Read.val_main_v88_apply, weights_eq]
  unfold wt
  refine congrArg _ (funext fun a => Fin.ext ?_)
  match a with
  | ⟨0, _⟩ => exact Nat.div_one _
  | ⟨1, _⟩ => rfl

/-- The seventh weight array at (r, j) is the softmax at (j, 6). -/
theorem wcol6 (x1 : FVec Ideal S8192x16 .f32) (r : Fin 4096) (j : Fin 8192) :
    Read.val_main_v97 (F := Ideal) x1 (ix2 r j) = wt x1 j 6 := by
  rw [Read.val_main_v97_apply, Read.val_main_v96_apply, Read.val_main_v95_apply, Read.val_main_v94_apply, weights_eq]
  unfold wt
  refine congrArg _ (funext fun a => Fin.ext ?_)
  match a with
  | ⟨0, _⟩ => exact Nat.div_one _
  | ⟨1, _⟩ => rfl

/-- The eighth weight array at (r, j) is the softmax at (j, 7). -/
theorem wcol7 (x1 : FVec Ideal S8192x16 .f32) (r : Fin 4096) (j : Fin 8192) :
    Read.val_main_v103 (F := Ideal) x1 (ix2 r j) = wt x1 j 7 := by
  rw [Read.val_main_v103_apply, Read.val_main_v102_apply, Read.val_main_v101_apply, Read.val_main_v100_apply, weights_eq]
  unfold wt
  refine congrArg _ (funext fun a => Fin.ext ?_)
  match a with
  | ⟨0, _⟩ => exact Nat.div_one _
  | ⟨1, _⟩ => rfl

/-- The ninth weight array at (r, j) is the softmax at (j, 8). -/
theorem wcol8 (x1 : FVec Ideal S8192x16 .f32) (r : Fin 4096) (j : Fin 8192) :
    Read.val_main_v109 (F := Ideal) x1 (ix2 r j) = wt x1 j 8 := by
  rw [Read.val_main_v109_apply, Read.val_main_v108_apply, Read.val_main_v107_apply, Read.val_main_v106_apply, weights_eq]
  unfold wt
  refine congrArg _ (funext fun a => Fin.ext ?_)
  match a with
  | ⟨0, _⟩ => exact Nat.div_one _
  | ⟨1, _⟩ => rfl

/-- The tenth weight array at (r, j) is the softmax at (j, 9). -/
theorem wcol9 (x1 : FVec Ideal S8192x16 .f32) (r : Fin 4096) (j : Fin 8192) :
    Read.val_main_v115 (F := Ideal) x1 (ix2 r j) = wt x1 j 9 := by
  rw [Read.val_main_v115_apply, Read.val_main_v114_apply, Read.val_main_v113_apply, Read.val_main_v112_apply, weights_eq]
  unfold wt
  refine congrArg _ (funext fun a => Fin.ext ?_)
  match a with
  | ⟨0, _⟩ => exact Nat.div_one _
  | ⟨1, _⟩ => rfl

/-- The eleventh weight array at (r, j) is the softmax at (j, 10). -/
theorem wcol10 (x1 : FVec Ideal S8192x16 .f32) (r : Fin 4096) (j : Fin 8192) :
    Read.val_main_v121 (F := Ideal) x1 (ix2 r j) = wt x1 j 10 := by
  rw [Read.val_main_v121_apply, Read.val_main_v120_apply, Read.val_main_v119_apply, Read.val_main_v118_apply, weights_eq]
  unfold wt
  refine congrArg _ (funext fun a => Fin.ext ?_)
  match a with
  | ⟨0, _⟩ => exact Nat.div_one _
  | ⟨1, _⟩ => rfl

/-- The twelfth weight array at (r, j) is the softmax at (j, 11). -/
theorem wcol11 (x1 : FVec Ideal S8192x16 .f32) (r : Fin 4096) (j : Fin 8192) :
    Read.val_main_v127 (F := Ideal) x1 (ix2 r j) = wt x1 j 11 := by
  rw [Read.val_main_v127_apply, Read.val_main_v126_apply, Read.val_main_v125_apply, Read.val_main_v124_apply, weights_eq]
  unfold wt
  refine congrArg _ (funext fun a => Fin.ext ?_)
  match a with
  | ⟨0, _⟩ => exact Nat.div_one _
  | ⟨1, _⟩ => rfl

/-- The thirteenth weight array at (r, j) is the softmax at (j, 12). -/
theorem wcol12 (x1 : FVec Ideal S8192x16 .f32) (r : Fin 4096) (j : Fin 8192) :
    Read.val_main_v133 (F := Ideal) x1 (ix2 r j) = wt x1 j 12 := by
  rw [Read.val_main_v133_apply, Read.val_main_v132_apply, Read.val_main_v131_apply, Read.val_main_v130_apply, weights_eq]
  unfold wt
  refine congrArg _ (funext fun a => Fin.ext ?_)
  match a with
  | ⟨0, _⟩ => exact Nat.div_one _
  | ⟨1, _⟩ => rfl

/-- The fourteenth weight array at (r, j) is the softmax at (j, 13). -/
theorem wcol13 (x1 : FVec Ideal S8192x16 .f32) (r : Fin 4096) (j : Fin 8192) :
    Read.val_main_v139 (F := Ideal) x1 (ix2 r j) = wt x1 j 13 := by
  rw [Read.val_main_v139_apply, Read.val_main_v138_apply, Read.val_main_v137_apply, Read.val_main_v136_apply, weights_eq]
  unfold wt
  refine congrArg _ (funext fun a => Fin.ext ?_)
  match a with
  | ⟨0, _⟩ => exact Nat.div_one _
  | ⟨1, _⟩ => rfl

/-- The fifteenth weight array at (r, j) is the softmax at (j, 14). -/
theorem wcol14 (x1 : FVec Ideal S8192x16 .f32) (r : Fin 4096) (j : Fin 8192) :
    Read.val_main_v145 (F := Ideal) x1 (ix2 r j) = wt x1 j 14 := by
  rw [Read.val_main_v145_apply, Read.val_main_v144_apply, Read.val_main_v143_apply, Read.val_main_v142_apply, weights_eq]
  unfold wt
  refine congrArg _ (funext fun a => Fin.ext ?_)
  match a with
  | ⟨0, _⟩ => exact Nat.div_one _
  | ⟨1, _⟩ => rfl

/-- The sixteenth weight array at (r, j) is the softmax at (j, 15). -/
theorem wcol15 (x1 : FVec Ideal S8192x16 .f32) (r : Fin 4096) (j : Fin 8192) :
    Read.val_main_v151 (F := Ideal) x1 (ix2 r j) = wt x1 j 15 := by
  rw [Read.val_main_v151_apply, Read.val_main_v150_apply, Read.val_main_v149_apply, Read.val_main_v148_apply, weights_eq]
  unfold wt
  refine congrArg _ (funext fun a => Fin.ext ?_)
  match a with
  | ⟨0, _⟩ => exact Nat.div_one _
  | ⟨1, _⟩ => rfl

/-! ## The constant arrays: a splat of the literal's extended real -/

theorem const26_at (i : S4096x8192.Idx) : Read.val_main_v26 (F := Ideal) i = (0 : EReal) := by
  rw [Read.val_main_v26_apply, Read.val_main_cst_5_apply, Ideal.ofBits_def, Cert.Spec.ofBits_zero]

theorem const27_at (i : S4096x8192.Idx) : Read.val_main_v27 (F := Ideal) i = (1 : EReal) := by
  rw [Read.val_main_v27_apply, Read.val_main_cst_6_apply, Ideal.ofBits_def, Cert.Spec.ofBits_one]

theorem const31_at (i : S4096x8192.Idx) : Read.val_main_v31 (F := Ideal) i = (2 : EReal) := by
  rw [Read.val_main_v31_apply, Read.val_main_cst_7_apply, Ideal.ofBits_def, Cert.Spec.ofBits_two]

theorem const38_at (i : S4096x8192.Idx) : Read.val_main_v38 (F := Ideal) i = (1 : EReal) := by
  rw [Read.val_main_v38_apply, Read.val_main_cst_8_apply, Ideal.ofBits_def, Cert.Spec.ofBits_one]

theorem const41_at (i : S4096x8192.Idx) : Read.val_main_v41 (F := Ideal) i = (2 : EReal) := by
  rw [Read.val_main_v41_apply, Read.val_main_cst_9_apply, Ideal.ofBits_def, Cert.Spec.ofBits_two]

theorem const44_at (i : S4096x8192.Idx) : Read.val_main_v44 (F := Ideal) i = (1 : EReal) := by
  rw [Read.val_main_v44_apply, Read.val_main_cst_10_apply, Ideal.ofBits_def, Cert.Spec.ofBits_one]

theorem const46_at (i : S4096x8192.Idx) : Read.val_main_v46 (F := Ideal) i = (1 : EReal) := by
  rw [Read.val_main_v46_apply, Read.val_main_cst_11_apply, Ideal.ofBits_def, Cert.Spec.ofBits_one]

theorem const48_at (i : S4096x8192.Idx) : Read.val_main_v48 (F := Ideal) i = (1 : EReal) := by
  rw [Read.val_main_v48_apply, Read.val_main_cst_12_apply, Ideal.ofBits_def, Cert.Spec.ofBits_one]

theorem const51_at (i : S4096x8192.Idx) : Read.val_main_v51 (F := Ideal) i = (1 : EReal) := by
  rw [Read.val_main_v51_apply, Read.val_main_cst_13_apply, Ideal.ofBits_def, Cert.Spec.ofBits_one]

theorem const53_at (i : S4096x8192.Idx) : Read.val_main_v53 (F := Ideal) i = (1 : EReal) := by
  rw [Read.val_main_v53_apply, Read.val_main_cst_14_apply, Ideal.ofBits_def, Cert.Spec.ofBits_one]

theorem const56_at (i : S4096x8192.Idx) : Read.val_main_v56 (F := Ideal) i = (1 : EReal) := by
  rw [Read.val_main_v56_apply, Read.val_main_cst_15_apply, Ideal.ofBits_def, Cert.Spec.ofBits_one]

/-! ## The result: the sixteen weighted gates added in the program's order -/

/-- The reference's result at row `r`, column `j`: the sixteen gates of the two gathered entries, weighted by the
    softmax of row `j` of the weights. -/
theorem ref_apply (x0 : FVec Ideal S4096x4096 .f32) (x1 : FVec Ideal S8192x16 .f32) (x2 x3 : IVec S8192 32)
    (r : Fin 4096) (j : Fin 8192) :
    Cert.ReferenceIdeal.Read.val_main_v153 (F := Ideal) x0 x1 x2 x3 (ix2 r j)
      = Cert.Spec.gateSum (fun i : Fin 16 => Cert.Spec.softmaxT (F := Ideal) Cert.ReferenceIdeal.Facts₀.reducesTo_S8192x16_S8192_d1 Cert.ReferenceIdeal.Facts₀.h_S_ Cert.ReferenceIdeal.Facts₀.bcast_S_S8192 Cert.ReferenceIdeal.Facts₀.bcast_S8192_S8192x1_0 Cert.ReferenceIdeal.Facts₀.bcast_S8192x1_S8192x16_0_1 x1 (ix2 j i))
          (Cert.Spec.takeT Cert.ReferenceIdeal.gather_S4096x4096_S8192x1_S4096x8192_0_1_n_n_1_1_40961 Cert.ReferenceIdeal.Facts₀.bcast_S_S8192 Cert.ReferenceIdeal.Facts₀.bcast_S8192_S8192x1_0 x0 x2 (ix2 r j)) (Cert.Spec.takeT Cert.ReferenceIdeal.gather_S4096x4096_S8192x1_S4096x8192_0_1_n_n_1_1_40961 Cert.ReferenceIdeal.Facts₀.bcast_S_S8192 Cert.ReferenceIdeal.Facts₀.bcast_S8192_S8192x1_0 x0 x3 (ix2 r j)) := by
  show _ = Cert.Spec.gateSum (wt x1 j) _ _
  rw [← gatherA_eq, ← gatherB_eq]
  -- the sixteen partial sums and products, outermost first, then the gates, the weights and the constants
  simp only [Read.val_main_v153_apply, Read.val_main_v152_apply, Read.val_main_v147_apply, Read.val_main_v146_apply, Read.val_main_v141_apply, Read.val_main_v140_apply, Read.val_main_v135_apply, Read.val_main_v134_apply, Read.val_main_v129_apply, Read.val_main_v128_apply, Read.val_main_v123_apply, Read.val_main_v122_apply, Read.val_main_v117_apply, Read.val_main_v116_apply, Read.val_main_v111_apply, Read.val_main_v110_apply, Read.val_main_v105_apply, Read.val_main_v104_apply, Read.val_main_v99_apply, Read.val_main_v98_apply, Read.val_main_v93_apply, Read.val_main_v92_apply, Read.val_main_v87_apply, Read.val_main_v86_apply, Read.val_main_v81_apply, Read.val_main_v80_apply, Read.val_main_v75_apply, Read.val_main_v74_apply, Read.val_main_v69_apply, Read.val_main_v68_apply, Read.val_main_v63_apply, Read.val_main_v62_apply,
    Read.val_main_v57_apply, Read.val_main_v55_apply, Read.val_main_v54_apply, Read.val_main_v52_apply, Read.val_main_v50_apply, Read.val_main_v49_apply, Read.val_main_v47_apply, Read.val_main_v45_apply, Read.val_main_v43_apply, Read.val_main_v42_apply, Read.val_main_v40_apply, Read.val_main_v39_apply, Read.val_main_v37_apply, Read.val_main_v36_apply, Read.val_main_v35_apply, Read.val_main_v34_apply, Read.val_main_v33_apply, Read.val_main_v32_apply, Read.val_main_v30_apply, Read.val_main_v29_apply, Read.val_main_v28_apply, Read.val_main_v14_apply,
    wcol0, wcol1, wcol2, wcol3, wcol4, wcol5, wcol6, wcol7, wcol8, wcol9, wcol10, wcol11, wcol12, wcol13, wcol14, wcol15,
    const26_at, const27_at, const31_at, const38_at, const41_at, const44_at, const46_at, const48_at, const51_at, const53_at, const56_at,
    Ideal.addf_def, Ideal.subf_def, Ideal.mulf_def]
  generalize Read.val_main_v6 (F := Ideal) x0 x2 (ix2 r j) = a
  generalize Read.val_main_v13 (F := Ideal) x0 x3 (ix2 r j) = b
  generalize wt x1 j = w
  unfold Cert.Spec.gateSum
  rfl

end Cert.ReferenceIdeal.HandValue

end
-- ==== Proof.Bridge.lean ====
/-
  The two results are one array.

  At row `r`, column `j` the kernel's result is `c0 + c1·a + c2·b + c3·(a·b)` with `a`, `b` the two gathered entries of
  `x` and `c0 … c3` the four coefficients of the softmax `w` of row `j` of the weights; the reference's is the sum of the
  sixteen gates of `a`, `b` weighted by the same `w`. Under the precondition `x` and the weights hold real numbers, so
  `a`, `b` (entries of `x`) and every `w i` (a softmax of reals) are real, and over the reals the two expressions are one
  polynomial. The precondition's index ranges are what makes the kernel's gathered arrays the plain gathers: inside
  numpy's range the range mask of its gathers is all ones, and nothing is replaced by the fill value. Both programs
  wrap a negative index the same way and gather with the same operation, so which entry of `x` is read is never opened.
-/
import proofs.«429068_j81123342287625_2_alg».proof.Proof.Spec
import proofs.«429068_j81123342287625_2_alg».proof.Proof.SpecMath
import proofs.«429068_j81123342287625_2_alg».proof.Proof.SpecSoftmax
import proofs.«429068_j81123342287625_2_alg».proof.Proof.PreDecode
import proofs.«429068_j81123342287625_2_alg».proof.Proof.KernelIdealValue
import proofs.«429068_j81123342287625_2_alg».proof.Proof.KernelIdealTake
import proofs.«429068_j81123342287625_2_alg».proof.Proof.KernelIdealCoef
import proofs.«429068_j81123342287625_2_alg».proof.Proof.RefValue

noncomputable section

namespace Cert.Bridge

open Idealize.ShloMosaic Idealize.ShloMosaic.TcCoe Idealize.SL.Sem Idealize.ShloMosaic.ValueIdx
open Cert.KernelIdeal Cert.KernelIdeal.Gen Cert.KernelIdeal.Hand Cert.KernelIdeal.HandValue Cert.KernelIdeal.HandHost

variable (m : (ℓ : Loc nD τ sig) → Buf (Elt Ideal) ℓ)

/-- An entry of a gathered array is an entry of `x`: real when `x` is. -/
theorem takeT_real {d : GatherDims Cert.Spec.SX Cert.Spec.SI1 Cert.Spec.SO} {hb0 hb1}
    (x : Cert.Spec.SX.Idx → EReal) (hx : ∀ i, ∃ r : ℝ, x i = (r : EReal)) (idx : IVec Cert.Spec.SI 32) (i : Cert.Spec.SO.Idx) :
    ∃ r : ℝ, Cert.Spec.takeT d hb0 hb1 x idx i = (r : EReal) := hx _

/-- The four-coefficient form at real data is the sixteen-gate sum. -/
theorem combine_coef_eq (W : Fin 16 → EReal) (hW : ∀ i, ∃ r : ℝ, W i = (r : EReal)) (a b : EReal)
    (ha : ∃ r : ℝ, a = (r : EReal)) (hb : ∃ r : ℝ, b = (r : EReal)) :
    Cert.Spec.combine (Cert.Spec.coef 0 W) (Cert.Spec.coef 1 W) (Cert.Spec.coef 2 W) (Cert.Spec.coef 3 W) a b
      = Cert.Spec.gateSum W a b := by
  choose w hw using hW
  obtain ⟨a', rfl⟩ := ha
  obtain ⟨b', rfl⟩ := hb
  obtain rfl : W = fun i => ((w i : ℝ) : EReal) := funext hw
  exact Cert.Spec.combine_eq_gateSum w a' b'

/-- Under the precondition the kernel's result array is the reference's last stage of the same arguments. -/
theorem result_eq (c : Dev nD)
    (hpre : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) = fun _ => 1#1) :
    outArr (V m c main_v0) (V m c main_v1) (V m c main_v83)
      = Cert.ReferenceIdeal.Read.val_main_v153 (F := Ideal) (m ((c.tc : Thread nD τ).loc main_arg0)) (m ((c.tc : Thread nD τ).loc main_arg1))
          (m ((c.tc : Thread nD τ).loc main_arg2)) (m ((c.tc : Thread nD τ).loc main_arg3)) := by
  obtain ⟨hx, hw, ha, hb⟩ := Cert.Pre_finite_inputs.Hand.decode _ _ _ _ hpre
  funext i
  obtain ⟨r, j, rfl⟩ : ∃ (r : Fin 4096) (j : Fin 8192), i = ix2 r j := ⟨i 0, i 1, eq_ix2 i⟩
  rw [Cert.ReferenceIdeal.HandValue.ref_apply]
  show outAt (V m c main_v0) (V m c main_v1) (V m c main_v83) r j = _
  unfold outAt
  rw [V_v0 m c ha, V_v1 m c hb, V_v83 m c 0 j, V_v83 m c 1 j, V_v83 m c 2 j, V_v83 m c 3 j]
  exact combine_coef_eq _ (fun i => Cert.Spec.softmaxT_real _ _ _ _ _ _ hw _) _ _
    (takeT_real _ hx _ _) (takeT_real _ hx _ _)

end Cert.Bridge

end
-- ==== Proof.lean ====
/-
  The kernel gathers two column sets `a = x[:, conn_a]`, `b = x[:, conn_b]` on the host, collapses the softmax-weighted
  sixteen soft logic gates into four per-column coefficients, and evaluates `c0 + c1·a + c2·b + c3·(a·b)` tile by tile in
  one pallas_call; the reference adds the sixteen weighted gates one by one. Claimed: both frames of the kernel (as printed
  and idealized) and the reference's, that the idealization rewrote nothing, and that over the extended reals the two
  results agree whenever the float inputs are finite and the indices lie in numpy's range `-4096 ≤ i < 4096` for an axis
  of extent 4096 (outside it the reference's gather clamps while the kernel's `jnp.take` fills with NaN).

  * the frames of the two kernel programs: one text, generic in the float instance (Proof/KernelIdealFrame.lean and, at
    the word-level namespace, Proof/KernelFrame.lean): three stretches of host operations, then the region, whose body
    loads three whole blocks and stores one;
  * the reference's frame: its run with the result dropped;
  * the value: the kernel's result array is one function of the three arrays the region stages
    (Proof/KernelIdealValue.lean); those arrays are the plain gathers (Proof/KernelIdealTake.lean, where the index
    range is used) and the four coefficients of the softmax (Proof/KernelIdealCoef.lean); the reference's result at an
    index is the sixteen-gate sum (Proof/RefValue.lean); finiteness comes from the precondition (Proof/PreDecode.lean)
    and the softmax of reals being real (Proof/SpecSoftmax.lean); the polynomial identity is Proof/SpecMath.lean; they
    meet in Proof/Bridge.lean.
-/
import proofs.«429068_j81123342287625_2_alg».proof.Defs
import proofs.«429068_j81123342287625_2_alg».proof.Proof.Gen.Kernel
import proofs.«429068_j81123342287625_2_alg».proof.Proof.Gen.Kernel.Skeleton
import proofs.«429068_j81123342287625_2_alg».proof.Proof.Gen.Kernel.Launch
import proofs.«429068_j81123342287625_2_alg».proof.Proof.Gen.Kernel.Points
import proofs.«429068_j81123342287625_2_alg».proof.Proof.Gen.KernelIdeal
import proofs.«429068_j81123342287625_2_alg».proof.Proof.Gen.KernelIdeal.Skeleton
import proofs.«429068_j81123342287625_2_alg».proof.Proof.Gen.KernelIdeal.Launch
import proofs.«429068_j81123342287625_2_alg».proof.Proof.Gen.KernelIdeal.Points
import proofs.«429068_j81123342287625_2_alg».proof.Proof.Gen.ReferenceIdeal
import proofs.«429068_j81123342287625_2_alg».proof.Proof.Gen.Pre_finite_inputs
import proofs.«429068_j81123342287625_2_alg».proof.Proof.Gen.ReferenceIdeal.Run
import proofs.«429068_j81123342287625_2_alg».proof.Proof.Gen.ReferenceIdeal.Read
import proofs.«429068_j81123342287625_2_alg».proof.Proof.KernelFrame
import proofs.«429068_j81123342287625_2_alg».proof.Proof.KernelIdealFrame
import proofs.«429068_j81123342287625_2_alg».proof.Proof.KernelIdealValue
import proofs.«429068_j81123342287625_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end, the kernel's result array at `outArr` of what the region staged, the reference's at its last stage of
    arguments that agree with the kernel's: one array under the precondition. -/
theorem algebraic : Cert.algebraic_KernelIdeal_ReferenceIdeal := by
  intro m ρ m' ρ' hpre hagree
  refine ⟨fun c => Cert.KernelIdeal.HandValue.outArr (Cert.KernelIdeal.Hand.V m c Cert.KernelIdeal.main_v0)
      (Cert.KernelIdeal.Hand.V m c Cert.KernelIdeal.main_v1) (Cert.KernelIdeal.Hand.V m c Cert.KernelIdeal.main_v83),
    Cert.KernelIdeal.HandValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v153_eq, (hagree c).1, (hagree c).2.1, (hagree c).2.2.1, (hagree c).2.2.2]
  exact (Cert.Bridge.result_eq m c (hpre c)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
